-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61_1)) (v1 : (c : Dev Cert.KernelIdeal.nD) → Buf (Elt Ideal) ((c.tc : Thread Cert.KernelIdeal.nD Cert.KernelIdeal.τ).loc Cert.KernelIdeal.main_v61_0)) (v2 : (c : Dev Cert.KernelIdeal.nD) → Buf (Elt Ideal) ((c.tc : Thread Cert.KernelIdeal.nD Cert.KernelIdeal.τ).loc Cert.KernelIdeal.main_v61_2)) (v3 : (c : Dev Cert.KernelIdeal.nD) → Buf (Elt Ideal) ((c.tc : Thread Cert.KernelIdeal.nD Cert.KernelIdeal.τ).loc Cert.KernelIdeal.main_v61_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_1) = v0 c
          ∧ r.2.mem ((c.tc : Thread Cert.KernelIdeal.nD Cert.KernelIdeal.τ).loc Cert.KernelIdeal.main_v61_0) = v1 c
          ∧ r.2.mem ((c.tc : Thread Cert.KernelIdeal.nD Cert.KernelIdeal.τ).loc Cert.KernelIdeal.main_v61_2) = v2 c
          ∧ r.2.mem ((c.tc : Thread Cert.KernelIdeal.nD Cert.KernelIdeal.τ).loc Cert.KernelIdeal.main_v61_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1027x257 : Shape := ⟨3, ![128, 1027, 257]⟩
abbrev S256x257 : Shape := ⟨2, ![256, 257]⟩
abbrev S256 : Shape := ⟨1, ![256]⟩
abbrev S_ : Shape := ⟨0, ![]⟩

class Facts : Prop where
  bcast_S_S128x1027x257 : S_.BroadcastsInDim S128x1027x257 (![] : Fin 0 → Fin S128x1027x257.rank)
  reducesTo_S128x1027x257_S_d0_1_2 : S128x1027x257.ReducesTo [0, 1, 2] S_
  h_S_ : 0 < S_.numel
  bcast_S_S256x257 : S_.BroadcastsInDim S256x257 (![] : Fin 0 → Fin S256x257.rank)
  reducesTo_S256x257_S_d0_1 : S256x257.ReducesTo [0, 1] S_
  bcast_S_S256 : S_.BroadcastsInDim S256 (![] : Fin 0 → Fin S256.rank)
  reducesTo_S256_S_d0 : S256.ReducesTo [0] S_
  reducesTo_S_S_d : S_.ReducesTo [] S_

variable [Facts]

def fn_part3 {F : FTy → Type} [FloatOps F] (main_arg11 : FVec F S256x257 .f32) (main_arg12 : FVec F S_ .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x257 .f32 := Host.absf main_arg11
  let main_cst_20 : FVec F S_ .f32 := constant S_ .f32 0x7F800000#32
  let main_v55 : FVec F S256x257 .f32 := broadcastInDim S256x257 ![] bcast_S_S256x257 main_cst_20
  let main_v56 : IVec S256x257 1 := cmpf .olt main_v54 main_v55
  let main_c_21 : IVec S_ 1 := constantI S_ 1 1#1
  let main_v57 : IVec S_ 1 := (fun x v => Host.reduce IntOp.andi x v reducesTo_S256x257_S_d0_1 h_S_) main_v56 main_c_21
  let main_v58 : IVec S_ 1 := andi main_v53 main_v57
  let main_v59 : FVec F S_ .f32 := Host.absf main_arg12
  let main_cst_22 : FVec F S_ .f32 := constant S_ .f32 0x7F800000#32
  let main_v60 : IVec S_ 1 := cmpf .olt main_v59 main_cst_22
  let main_c_23 : IVec S_ 1 := constantI S_ 1 1#1
  let main_v61 : IVec S_ 1 := (fun x v => Host.reduce IntOp.andi x v reducesTo_S_S_d h_S_) main_v60 main_c_23
  let main_v62 : IVec S_ 1 := andi main_v58 main_v61
  main_v62

def fn_part2 {F : FTy → Type} [FloatOps F] (main_arg7 : FVec F S256x257 .f32) (main_arg8 : FVec F S256 .f32) (main_arg9 : FVec F S256x257 .f32) (main_arg10 : FVec F S256 .f32) (main_arg11 : FVec F S256x257 .f32) (main_arg12 : FVec F S_ .f32) (main_v33 : IVec S_ 1) : IVec S_ 1 :=
  let main_v34 : FVec F S256x257 .f32 := Host.absf main_arg7
  let main_cst_12 : FVec F S_ .f32 := constant S_ .f32 0x7F800000#32
  let main_v35 : FVec F S256x257 .f32 := broadcastInDim S256x257 ![] bcast_S_S256x257 main_cst_12
  let main_v36 : IVec S256x257 1 := cmpf .olt main_v34 main_v35
  let main_c_13 : IVec S_ 1 := constantI S_ 1 1#1
  let main_v37 : IVec S_ 1 := (fun x v => Host.reduce IntOp.andi x v reducesTo_S256x257_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x257 .f32 := Host.absf main_arg9
  let main_cst_16 : FVec F S_ .f32 := constant S_ .f32 0x7F800000#32
  let main_v45 : FVec F S256x257 .f32 := broadcastInDim S256x257 ![] bcast_S_S256x257 main_cst_16
  let main_v46 : IVec S256x257 1 := cmpf .olt main_v44 main_v45
  let main_c_17 : IVec S_ 1 := constantI S_ 1 1#1
  let main_v47 : IVec S_ 1 := (fun x v => Host.reduce IntOp.andi x v reducesTo_S256x257_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S256x257 .f32) (main_arg6 : FVec F S256 .f32) (main_arg7 : FVec F S256x257 .f32) (main_arg8 : FVec F S256 .f32) (main_arg9 : FVec F S256x257 .f32) (main_arg10 : FVec F S256 .f32) (main_arg11 : FVec F S256x257 .f32) (main_arg12 : FVec F S_ .f32) (main_v13 : IVec S_ 1) (main_v16 : IVec S256x257 1) : IVec S_ 1 :=
  let main_c_5 : IVec S_ 1 := constantI S_ 1 1#1
  let main_v17 : IVec S_ 1 := (fun x v => Host.reduce IntOp.andi x v reducesTo_S256x257_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x257 .f32 := Host.absf main_arg5
  let main_cst_8 : FVec F S_ .f32 := constant S_ .f32 0x7F800000#32
  let main_v25 : FVec F S256x257 .f32 := broadcastInDim S256x257 ![] bcast_S_S256x257 main_cst_8
  let main_v26 : IVec S256x257 1 := cmpf .olt main_v24 main_v25
  let main_c_9 : IVec S_ 1 := constantI S_ 1 1#1
  let main_v27 : IVec S_ 1 := (fun x v => Host.reduce IntOp.andi x v reducesTo_S256x257_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x1027x257 .f32) (main_arg1 : FVec F S256x257 .f32) (main_arg2 : FVec F S256 .f32) (main_arg3 : FVec F S256x257 .f32) (main_arg4 : FVec F S256 .f32) (main_arg5 : FVec F S256x257 .f32) (main_arg6 : FVec F S256 .f32) (main_arg7 : FVec F S256x257 .f32) (main_arg8 : FVec F S256 .f32) (main_arg9 : FVec F S256x257 .f32) (main_arg10 : FVec F S256 .f32) (main_arg11 : FVec F S256x257 .f32) (main_arg12 : FVec F S_ .f32) : IVec S_ 1 :=
  let main_v0 : FVec F S128x1027x257 .f32 := Host.absf main_arg0
  let main_cst : FVec F S_ .f32 := constant S_ .f32 0x7F800000#32
  let main_v1 : FVec F S128x1027x257 .f32 := broadcastInDim S128x1027x257 ![] bcast_S_S128x1027x257 main_cst
  let main_v2 : IVec S128x1027x257 1 := cmpf .olt main_v0 main_v1
  let main_c : IVec S_ 1 := constantI S_ 1 1#1
  let main_v3 : IVec S_ 1 := (fun x v => Host.reduce IntOp.andi x v reducesTo_S128x1027x257_S_d0_1_2 h_S_) main_v2 main_c
  let main_v4 : FVec F S256x257 .f32 := Host.absf main_arg1
  let main_cst_0 : FVec F S_ .f32 := constant S_ .f32 0x7F800000#32
  let main_v5 : FVec F S256x257 .f32 := broadcastInDim S256x257 ![] bcast_S_S256x257 main_cst_0
  let main_v6 : IVec S256x257 1 := cmpf .olt main_v4 main_v5
  let main_c_1 : IVec S_ 1 := constantI S_ 1 1#1
  let main_v7 : IVec S_ 1 := (fun x v => Host.reduce IntOp.andi x v reducesTo_S256x257_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x257 .f32 := Host.absf main_arg3
  let main_cst_4 : FVec F S_ .f32 := constant S_ .f32 0x7F800000#32
  let main_v15 : FVec F S256x257 .f32 := broadcastInDim S256x257 ![] bcast_S_S256x257 main_cst_4
  let main_v16 : IVec S256x257 1 := cmpf .olt main_v14 main_v15
  fn_part1 (F := F) main_arg4 main_arg5 main_arg6 main_arg7 main_arg8 main_arg9 main_arg10 main_arg11 main_arg12 main_v13 main_v16
-- ==== Kernel.lean ====
abbrev S128x1027x257 : Shape := ⟨3, ![128, 1027, 257]⟩
abbrev S256x257 : Shape := ⟨2, ![256, 257]⟩
abbrev S256 : Shape := ⟨1, ![256]⟩
abbrev S_ : Shape := ⟨0, ![]⟩
abbrev S128x1024x256 : Shape := ⟨3, ![128, 1024, 256]⟩
abbrev S128x1x256 : Shape := ⟨3, ![128, 1, 256]⟩
abbrev S4x1027x257 : Shape := ⟨3, ![4, 1027, 257]⟩
abbrev S4x1024x256 : Shape := ⟨3, ![4, 1024, 256]⟩
abbrev S4x1x256 : Shape := ⟨3, ![4, 1, 256]⟩
abbrev S4108x257 : Shape := ⟨2, ![4108, 257]⟩
abbrev S4108x256 : Shape := ⟨2, ![4108, 256]⟩
abbrev S4x1027x256 : Shape := ⟨3, ![4, 1027, 256]⟩
abbrev S1x1x256 : Shape := ⟨3, ![1, 1, 256]⟩
abbrev S4x1x257 : Shape := ⟨3, ![4, 1, 257]⟩
abbrev S4x257 : Shape := ⟨2, ![4, 257]⟩
abbrev S4x256 : Shape := ⟨2, ![4, 256]⟩
abbrev S1x256 : Shape := ⟨2, ![1, 256]⟩

abbrev nBuf : Space → Nat
  | .hbm => 85
  | .vmem => 18
  | .smem => 0
  | _ => 0

abbrev bufTy : (tb : Table) → Fin (tcTables nBuf tb) → BufTy
  | .hbm, ⟨0, _⟩ => ⟨S128x1027x257, .f32⟩
  | .hbm, ⟨1, _⟩ => ⟨S256x257, .f32⟩
  | .hbm, ⟨2, _⟩ => ⟨S256, .f32⟩
  | .hbm, ⟨3, _⟩ => ⟨S256x257, .f32⟩
  | .hbm, ⟨4, _⟩ => ⟨S256, .f32⟩
  | .hbm, ⟨5, _⟩ => ⟨S256x257, .f32⟩
  | .hbm, ⟨6, _⟩ => ⟨S256, .f32⟩
  | .hbm, ⟨7, _⟩ => ⟨S256x257, .f32⟩
  | .hbm, ⟨8, _⟩ => ⟨S256, .f32⟩
  | .hbm, ⟨9, _⟩ => ⟨S256x257, .f32⟩
  | .hbm, ⟨10, _⟩ => ⟨S256, .f32⟩
  | .hbm, ⟨11, _⟩ => ⟨S256x257, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S256x257, .f32⟩
  | .hbm, ⟨22, _⟩ => ⟨S256x257, .f32⟩
  | .hbm, ⟨23, _⟩ => ⟨S256x257, .f32⟩
  | .hbm, ⟨24, _⟩ => ⟨S256x257, .f32⟩
  | .hbm, ⟨25, _⟩ => ⟨S256x257, .f32⟩
  | .hbm, ⟨26, _⟩ => ⟨S_, .f32⟩
  | .hbm, ⟨27, _⟩ => ⟨S_, .f32⟩
  | .hbm, ⟨28, _⟩ => ⟨S256x257, .f32⟩
  | .hbm, ⟨29, _⟩ => ⟨S256x257, .f32⟩
  | .hbm, ⟨30, _⟩ => ⟨S256x257, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S256x257, .f32⟩
  | .hbm, ⟨37, _⟩ => ⟨S256x257, .f32⟩
  | .hbm, ⟨38, _⟩ => ⟨S256x257, .f32⟩
  | .hbm, ⟨39, _⟩ => ⟨S256x257, .f32⟩
  | .hbm, ⟨40, _⟩ => ⟨S256x257, .f32⟩
  | .hbm, ⟨41, _⟩ => ⟨S_, .f32⟩
  | .hbm, ⟨42, _⟩ => ⟨S_, .f32⟩
  | .hbm, ⟨43, _⟩ => ⟨S256x257, .f32⟩
  | .hbm, ⟨44, _⟩ => ⟨S256x257, .f32⟩
  | .hbm, ⟨45, _⟩ => ⟨S256x257, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S256x257, .f32⟩
  | .hbm, ⟨52, _⟩ => ⟨S256x257, .f32⟩
  | .hbm, ⟨53, _⟩ => ⟨S256x257, .f32⟩
  | .hbm, ⟨54, _⟩ => ⟨S256x257, .f32⟩
  | .hbm, ⟨55, _⟩ => ⟨S256x257, .f32⟩
  | .hbm, ⟨56, _⟩ => ⟨S_, .f32⟩
  | .hbm, ⟨57, _⟩ => ⟨S_, .f32⟩
  | .hbm, ⟨58, _⟩ => ⟨S256x257, .f32⟩
  | .hbm, ⟨59, _⟩ => ⟨S256x257, .f32⟩
  | .hbm, ⟨60, _⟩ => ⟨S256x257, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256x257, .f32⟩
  | .hbm, ⟨67, _⟩ => ⟨S256x257, .f32⟩
  | .hbm, ⟨68, _⟩ => ⟨S256x257, .f32⟩
  | .hbm, ⟨69, _⟩ => ⟨S256x257, .f32⟩
  | .hbm, ⟨70, _⟩ => ⟨S256x257, .f32⟩
  | .hbm, ⟨71, _⟩ => ⟨S_, .f32⟩
  | .hbm, ⟨72, _⟩ => ⟨S_, .f32⟩
  | .hbm, ⟨73, _⟩ => ⟨S256x257, .f32⟩
  | .hbm, ⟨74, _⟩ => ⟨S256x257, .f32⟩
  | .hbm, ⟨75, _⟩ => ⟨S256x257, .f32⟩
  | .hbm, ⟨76, _⟩ => ⟨S256, .f32⟩
  | .hbm, ⟨77, _⟩ => ⟨S256, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S128x1024x256, .f32⟩
  | .hbm, ⟨82, _⟩ => ⟨S128x1x256, .f32⟩
  | .hbm, ⟨83, _⟩ => ⟨S128x1x256, .f32⟩
  | .hbm, ⟨84, _⟩ => ⟨S128x1x256, .f32⟩
  | .local _ .vmem, ⟨0, _⟩ => ⟨S4x1027x257, .f32⟩
  | .local _ .vmem, ⟨1, _⟩ => ⟨S4x1027x257, .f32⟩
  | .local _ .vmem, ⟨2, _⟩ => ⟨S256x257, .f32⟩
  | .local _ .vmem, ⟨3, _⟩ => ⟨S256, .f32⟩
  | .local _ .vmem, ⟨4, _⟩ => ⟨S256x257, .f32⟩
  | .local _ .vmem, ⟨5, _⟩ => ⟨S256, .f32⟩
  | .local _ .vmem, ⟨6, _⟩ => ⟨S256x257, .f32⟩
  | .local _ .vmem, ⟨7, _⟩ => ⟨S256, .f32⟩
  | .local _ .vmem, ⟨8, _⟩ => ⟨S256x257, .f32⟩
  | .local _ .vmem, ⟨9, _⟩ => ⟨S256, .f32⟩
  | .local _ .vmem, ⟨10, _⟩ => ⟨S4x1024x256, .f32⟩
  | .local _ .vmem, ⟨11, _⟩ => ⟨S4x1024x256, .f32⟩
  | .local _ .vmem, ⟨12, _⟩ => ⟨S4x1x256, .f32⟩
  | .local _ .vmem, ⟨13, _⟩ => ⟨S4x1x256, .f32⟩
  | .local _ .vmem, ⟨14, _⟩ => ⟨S4x1x256, .f32⟩
  | .local _ .vmem, ⟨15, _⟩ => ⟨S4x1x256, .f32⟩
  | .local _ .vmem, ⟨16, _⟩ => ⟨S4x1x256, .f32⟩
  | .local _ .vmem, ⟨17, _⟩ => ⟨S4x1x256, .f32⟩
  | _, _ => ⟨S128x1027x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61_0 : Ref sig .tc := ⟨.hbm, 81, rfl⟩
abbrev main_v61_1 : Ref sig .tc := ⟨.hbm, 82, rfl⟩
abbrev main_v61_2 : Ref sig .tc := ⟨.hbm, 83, rfl⟩
abbrev main_v61_3 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1027x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x257 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x257 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x257 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S256x257 : S_.BroadcastsInDim S256x257 (![] : Fin 0 → Fin S256x257.rank)
  bcast_S_S256 : S_.BroadcastsInDim S256 (![] : Fin 0 → Fin S256.rank)
  inb_S4x1027x257_S4x1027x257_0_0_0 : ∀ a, (![0, 0, 0] : Fin 3 → Nat) a + S4x1027x257.size a ≤ S4x1027x257.size a
  h_S4x1027x257 : 0 < S4x1027x257.numel
  bitsLt_bf16_f32 : FTy.bits .bf16 < FTy.bits .f32
  inb_S256x257_S256x257_0_0 : ∀ a, (![0, 0] : Fin 2 → Nat) a + S256x257.size a ≤ S256x257.size a
  h_S256x257 : 0 < S256x257.numel
  shapeCasts_S256x257_S256x257 : S256x257.ShapeCasts S256x257
  inb_S256_S256_0 : ∀ a, (![0] : Fin 1 → Nat) a + S256.size a ≤ S256.size a
  h_S256 : 0 < S256.numel
  shapeCasts_S256_S256 : S256.ShapeCasts S256
  shapeCasts_S4x1027x257_S4108x257 : S4x1027x257.ShapeCasts S4108x257
  shapeCasts_S4108x256_S4x1027x256 : S4108x256.ShapeCasts S4x1027x256
  shapeCasts_S256_S1x1x256 : S256.ShapeCasts S1x1x256
  broadcasts_S1x1x256_S4x1027x256 : S1x1x256.Broadcasts S4x1027x256
  slices_S4x1027x256_o0_1_0_S4x1024x256 : S4x1027x256.Slices ![0, 1, 0] S4x1024x256
  inb_S4x1024x256_S4x1024x256_0_0_0 : ∀ a, (![0, 0, 0] : Fin 3 → Nat) a + S4x1024x256.size a ≤ S4x1024x256.size a
  h_S4x1024x256 : 0 < S4x1024x256.numel
  slices_S4x1027x257_o0_0_0_S4x1x257 : S4x1027x257.Slices ![0, 0, 0] S4x1x257
  shapeCasts_S4x1x257_S4x257 : S4x1x257.ShapeCasts S4x257
  shapeCasts_S256_S1x256 : S256.ShapeCasts S1x256
  broadcasts_S1x256_S4x256 : S1x256.Broadcasts S4x256
  shapeCasts_S4x256_S4x1x256 : S4x256.ShapeCasts S4x1x256
  inb_S4x1x256_S4x1x256_0_0_0 : ∀ a, (![0, 0, 0] : Fin 3 → Nat) a + S4x1x256.size a ≤ S4x1x256.size a
  h_S4x1x256 : 0 < S4x1x256.numel
  slices_S4x1027x257_o0_1025_0_S4x1x257 : S4x1027x257.Slices ![0, 1025, 0] S4x1x257
  slices_S4x1027x257_o0_1026_0_S4x1x257 : S4x1027x257.Slices ![0, 1026, 0] S4x1x257
  dot_S4108x257_S256x257_S4108x256_1_1_0_0_n_n_wf : DotDims.WF S4108x257 S256x257 S4108x256 [1] [1] [0] [0] [] []
  dot_S4x257_S256x257_S4x256_1_1_0_0_n_n_wf : DotDims.WF S4x257 S256x257 S4x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1027x257.size a ≤ S128x1027x257.size a
  hwx0_0 : ∀ i : grid0.Coords, EltTy.bits .f32 = 32 ∨ (Rect.block (s := S128x1027x257) S4x1027x257.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x257.size a ≤ S256x257.size a
  hwx0_1 : ∀ i : grid0.Coords, EltTy.bits .f32 = 32 ∨ (Rect.block (s := S256x257) S256x257.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x257.size a ≤ S256x257.size a
  hwx0_3 : ∀ i : grid0.Coords, EltTy.bits .f32 = 32 ∨ (Rect.block (s := S256x257) S256x257.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x257.size a ≤ S256x257.size a
  hwx0_5 : ∀ i : grid0.Coords, EltTy.bits .f32 = 32 ∨ (Rect.block (s := S256x257) S256x257.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x257.size a ≤ S256x257.size a
  hwx0_7 : ∀ i : grid0.Coords, EltTy.bits .f32 = 32 ∨ (Rect.block (s := S256x257) S256x257.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x1024x256.size a ≤ S128x1024x256.size a
  hwx0_9 : ∀ i : grid0.Coords, EltTy.bits .f32 = 32 ∨ (Rect.block (s := S128x1024x256) S4x1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x1x256.size a ≤ S128x1x256.size a
  hwx0_10 : ∀ i : grid0.Coords, EltTy.bits .f32 = 32 ∨ (Rect.block (s := S128x1x256) S4x1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x1x256.size a ≤ S128x1x256.size a
  hwx0_11 : ∀ i : grid0.Coords, EltTy.bits .f32 = 32 ∨ (Rect.block (s := S128x1x256) S4x1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4x1x256.size a ≤ S128x1x256.size a
  hwx0_12 : ∀ i : grid0.Coords, EltTy.bits .f32 = 32 ∨ (Rect.block (s := S128x1x256) S4x1x256.size (cc0_transform_12 i) (hinb0_12 i)).WholeWords (EltTy.packing .f32)

variable [Facts₀]

def dot_S4108x257_S256x257_S4108x256_1_1_0_0_n_n : DotDims S4108x257 S256x257 S4108x256 where
  lhsContracting := [1]
  rhsContracting := [1]
  lhsNonContracting := [0]
  rhsNonContracting := [0]
  lhsBatch := []
  rhsBatch := []
  wf := dot_S4108x257_S256x257_S4108x256_1_1_0_0_n_n_wf
def dot_S4x257_S256x257_S4x256_1_1_0_0_n_n : DotDims S4x257 S256x257 S4x256 where
  lhsContracting := [1]
  rhsContracting := [1]
  lhsNonContracting := [0]
  rhsNonContracting := [0]
  lhsBatch := []
  rhsBatch := []
  wf := dot_S4x257_S256x257_S4x256_1_1_0_0_n_n_wf

abbrev win0_0 : Pipeline.Window sig grid0 :=
  Pipeline.Window.ofSpec (Memref.whole main_arg0) S4x1027x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S256x257.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v60) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x257.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S256x257.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S256x257.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v46) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v61_0) S4x1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v61_1) S4x1x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v61_2) S4x1x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v61_3) S4x1x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S128x1027x257 : Shape := ⟨3, ![128, 1027, 257]⟩
abbrev S256x257 : Shape := ⟨2, ![256, 257]⟩
abbrev S256 : Shape := ⟨1, ![256]⟩
abbrev S_ : Shape := ⟨0, ![]⟩
abbrev S128x1x257 : Shape := ⟨3, ![128, 1, 257]⟩
abbrev S128x1024x257 : Shape := ⟨3, ![128, 1024, 257]⟩
abbrev S128x1x256 : Shape := ⟨3, ![128, 1, 256]⟩
abbrev S1x1x256 : Shape := ⟨3, ![1, 1, 256]⟩
abbrev S128x1024x256 : Shape := ⟨3, ![128, 1024, 256]⟩

abbrev nBuf : Space → Nat
  | .hbm => 103
  | .vmem => 0
  | .smem => 0
  | _ => 0

abbrev bufTy : (tb : Table) → Fin (tcTables nBuf tb) → BufTy
  | .hbm, ⟨0, _⟩ => ⟨S128x1027x257, .f32⟩
  | .hbm, ⟨1, _⟩ => ⟨S256x257, .f32⟩
  | .hbm, ⟨2, _⟩ => ⟨S256, .f32⟩
  | .hbm, ⟨3, _⟩ => ⟨S256x257, .f32⟩
  | .hbm, ⟨4, _⟩ => ⟨S256, .f32⟩
  | .hbm, ⟨5, _⟩ => ⟨S256x257, .f32⟩
  | .hbm, ⟨6, _⟩ => ⟨S256, .f32⟩
  | .hbm, ⟨7, _⟩ => ⟨S256x257, .f32⟩
  | .hbm, ⟨8, _⟩ => ⟨S256, .f32⟩
  | .hbm, ⟨9, _⟩ => ⟨S256x257, .f32⟩
  | .hbm, ⟨10, _⟩ => ⟨S256, .f32⟩
  | .hbm, ⟨11, _⟩ => ⟨S256x257, .f32⟩
  | .hbm, ⟨12, _⟩ => ⟨S_, .f32⟩
  | .hbm, ⟨13, _⟩ => ⟨S128x1x257, .f32⟩
  | .hbm, ⟨14, _⟩ => ⟨S128x1024x257, .f32⟩
  | .hbm, ⟨15, _⟩ => ⟨S128x1x257, .f32⟩
  | .hbm, ⟨16, _⟩ => ⟨S128x1x257, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S128x1x256, .f32⟩
  | .hbm, ⟨24, _⟩ => ⟨S1x1x256, .f32⟩
  | .hbm, ⟨25, _⟩ => ⟨S128x1x256, .f32⟩
  | .hbm, ⟨26, _⟩ => ⟨S128x1x256, .f32⟩
  | .hbm, ⟨27, _⟩ => ⟨S128x1x256, .f32⟩
  | .hbm, ⟨28, _⟩ => ⟨S1x1x256, .f32⟩
  | .hbm, ⟨29, _⟩ => ⟨S128x1x256, .f32⟩
  | .hbm, ⟨30, _⟩ => ⟨S128x1x256, .f32⟩
  | .hbm, ⟨31, _⟩ => ⟨S128x1x256, .f32⟩
  | .hbm, ⟨32, _⟩ => ⟨S_, .f32⟩
  | .hbm, ⟨33, _⟩ => ⟨S128x1x256, .f32⟩
  | .hbm, ⟨34, _⟩ => ⟨S128x1x256, .f32⟩
  | .hbm, ⟨35, _⟩ => ⟨S128x1x256, .f32⟩
  | .hbm, ⟨36, _⟩ => ⟨S_, .f32⟩
  | .hbm, ⟨37, _⟩ => ⟨S_, .f32⟩
  | .hbm, ⟨38, _⟩ => ⟨S128x1x256, .f32⟩
  | .hbm, ⟨39, _⟩ => ⟨S128x1x256, .f32⟩
  | .hbm, ⟨40, _⟩ => ⟨S128x1x256, .f32⟩
  | .hbm, ⟨41, _⟩ => ⟨S128x1x256, .f32⟩
  | .hbm, ⟨42, _⟩ => ⟨S128x1x256, .f32⟩
  | .hbm, ⟨43, _⟩ => ⟨S128x1024x256, .f32⟩
  | .hbm, ⟨44, _⟩ => ⟨S1x1x256, .f32⟩
  | .hbm, ⟨45, _⟩ => ⟨S128x1024x256, .f32⟩
  | .hbm, ⟨46, _⟩ => ⟨S128x1024x256, .f32⟩
  | .hbm, ⟨47, _⟩ => ⟨S128x1024x256, .f32⟩
  | .hbm, ⟨48, _⟩ => ⟨S1x1x256, .f32⟩
  | .hbm, ⟨49, _⟩ => ⟨S128x1024x256, .f32⟩
  | .hbm, ⟨50, _⟩ => ⟨S128x1024x256, .f32⟩
  | .hbm, ⟨51, _⟩ => ⟨S128x1024x256, .f32⟩
  | .hbm, ⟨52, _⟩ => ⟨S_, .f32⟩
  | .hbm, ⟨53, _⟩ => ⟨S128x1024x256, .f32⟩
  | .hbm, ⟨54, _⟩ => ⟨S128x1024x256, .f32⟩
  | .hbm, ⟨55, _⟩ => ⟨S128x1024x256, .f32⟩
  | .hbm, ⟨56, _⟩ => ⟨S_, .f32⟩
  | .hbm, ⟨57, _⟩ => ⟨S_, .f32⟩
  | .hbm, ⟨58, _⟩ => ⟨S128x1024x256, .f32⟩
  | .hbm, ⟨59, _⟩ => ⟨S128x1024x256, .f32⟩
  | .hbm, ⟨60, _⟩ => ⟨S128x1024x256, .f32⟩
  | .hbm, ⟨61, _⟩ => ⟨S128x1024x256, .f32⟩
  | .hbm, ⟨62, _⟩ => ⟨S128x1024x256, .f32⟩
  | .hbm, ⟨63, _⟩ => ⟨S128x1x256, .f32⟩
  | .hbm, ⟨64, _⟩ => ⟨S1x1x256, .f32⟩
  | .hbm, ⟨65, _⟩ => ⟨S128x1x256, .f32⟩
  | .hbm, ⟨66, _⟩ => ⟨S128x1x256, .f32⟩
  | .hbm, ⟨67, _⟩ => ⟨S128x1x256, .f32⟩
  | .hbm, ⟨68, _⟩ => ⟨S1x1x256, .f32⟩
  | .hbm, ⟨69, _⟩ => ⟨S128x1x256, .f32⟩
  | .hbm, ⟨70, _⟩ => ⟨S128x1x256, .f32⟩
  | .hbm, ⟨71, _⟩ => ⟨S128x1x256, .f32⟩
  | .hbm, ⟨72, _⟩ => ⟨S_, .f32⟩
  | .hbm, ⟨73, _⟩ => ⟨S128x1x256, .f32⟩
  | .hbm, ⟨74, _⟩ => ⟨S128x1x256, .f32⟩
  | .hbm, ⟨75, _⟩ => ⟨S128x1x256, .f32⟩
  | .hbm, ⟨76, _⟩ => ⟨S_, .f32⟩
  | .hbm, ⟨77, _⟩ => ⟨S_, .f32⟩
  | .hbm, ⟨78, _⟩ => ⟨S128x1x256, .f32⟩
  | .hbm, ⟨79, _⟩ => ⟨S128x1x256, .f32⟩
  | .hbm, ⟨80, _⟩ => ⟨S128x1x256, .f32⟩
  | .hbm, ⟨81, _⟩ => ⟨S128x1x256, .f32⟩
  | .hbm, ⟨82, _⟩ => ⟨S128x1x256, .f32⟩
  | .hbm, ⟨83, _⟩ => ⟨S128x1x256, .f32⟩
  | .hbm, ⟨84, _⟩ => ⟨S1x1x256, .f32⟩
  | .hbm, ⟨85, _⟩ => ⟨S128x1x256, .f32⟩
  | .hbm, ⟨86, _⟩ => ⟨S128x1x256, .f32⟩
  | .hbm, ⟨87, _⟩ => ⟨S128x1x256, .f32⟩
  | .hbm, ⟨88, _⟩ => ⟨S1x1x256, .f32⟩
  | .hbm, ⟨89, _⟩ => ⟨S128x1x256, .f32⟩
  | .hbm, ⟨90, _⟩ => ⟨S128x1x256, .f32⟩
  | .hbm, ⟨91, _⟩ => ⟨S128x1x256, .f32⟩
  | .hbm, ⟨92, _⟩ => ⟨S_, .f32⟩
  | .hbm, ⟨93, _⟩ => ⟨S128x1x256, .f32⟩
  | .hbm, ⟨94, _⟩ => ⟨S128x1x256, .f32⟩
  | .hbm, ⟨95, _⟩ => ⟨S128x1x256, .f32⟩
  | .hbm, ⟨96, _⟩ => ⟨S_, .f32⟩
  | .hbm, ⟨97, _⟩ => ⟨S_, .f32⟩
  | .hbm, ⟨98, _⟩ => ⟨S128x1x256, .f32⟩
  | .hbm, ⟨99, _⟩ => ⟨S128x1x256, .f32⟩
  | .hbm, ⟨100, _⟩ => ⟨S128x1x256, .f32⟩
  | .hbm, ⟨101, _⟩ => ⟨S128x1x256, .f32⟩
  | .hbm, ⟨102, _⟩ => ⟨S128x1x256, .f32⟩
  | _, _ => ⟨S128x1027x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_5 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_7 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_8 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]

class Facts₀ : Prop where
  slices_S128x1027x257_S128x1x257_0_0_0 : S128x1027x257.Slices ![0, 0, 0] S128x1x257
  slices_S128x1027x257_S128x1024x257_0_1_0 : S128x1027x257.Slices ![0, 1, 0] S128x1024x257
  slices_S128x1027x257_S128x1x257_0_1025_0 : S128x1027x257.Slices ![0, 1025, 0] S128x1x257
  slices_S128x1027x257_S128x1x257_0_1026_0 : S128x1027x257.Slices ![0, 1026, 0] S128x1x257
  bcast_S256_S1x1x256_2 : S256.BroadcastsInDim S1x1x256 (![2] : Fin 1 → Fin S1x1x256.rank)
  bcast_S1x1x256_S128x1x256_0_1_2 : S1x1x256.BroadcastsInDim S128x1x256 (![0, 1, 2] : Fin 3 → Fin S128x1x256.rank)
  bcast_S_S128x1x256 : S_.BroadcastsInDim S128x1x256 (![] : Fin 0 → Fin S128x1x256.rank)
  bcast_S1x1x256_S128x1024x256_0_1_2 : S1x1x256.BroadcastsInDim S128x1024x256 (![0, 1, 2] : Fin 3 → Fin S128x1024x256.rank)
  bcast_S_S128x1024x256 : S_.BroadcastsInDim S128x1024x256 (![] : Fin 0 → Fin S128x1024x256.rank)
  dot_S128x1x257_S256x257_S128x1x256_2_1_01_0_n_n_wf : DotDims.WF S128x1x257 S256x257 S128x1x256 [2] [1] [0, 1] [0] [] []
  dot_S128x1024x257_S256x257_S128x1024x256_2_1_01_0_n_n_wf : DotDims.WF S128x1024x257 S256x257 S128x1024x256 [2] [1] [0, 1] [0] [] []

variable [Facts₀]

def dot_S128x1x257_S256x257_S128x1x256_2_1_01_0_n_n : DotDims S128x1x257 S256x257 S128x1x256 where
  lhsContracting := [2]
  rhsContracting := [1]
  lhsNonContracting := [0, 1]
  rhsNonContracting := [0]
  lhsBatch := []
  rhsBatch := []
  wf := dot_S128x1x257_S256x257_S128x1x256_2_1_01_0_n_n_wf
def dot_S128x1024x257_S256x257_S128x1024x256_2_1_01_0_n_n : DotDims S128x1024x257 S256x257 S128x1024x256 where
  lhsContracting := [2]
  rhsContracting := [1]
  lhsNonContracting := [0, 1]
  rhsNonContracting := [0]
  lhsBatch := []
  rhsBatch := []
  wf := dot_S128x1024x257_S256x257_S128x1024x256_2_1_01_0_n_n_wf

class Facts : Prop extends Facts₀ where

variable [Facts]
-- ==== Proof.LibReal.lean ====
/-
  Finite reals among the extended reals. At the ideal float instance a value is an extended real;
  the laws of real arithmetic (a variance as a mean of squares minus the squared mean, say) hold
  of the FINITE ones only. This module names the predicate "is the coercion of a real", shows it
  closed under the ideal operations a kernel and its reference are built from (sum, difference,
  product, finite sums, quotient by a nonzero real, exponential, maximum and its folds), and reads
  the four f32 words a program spells for 0, 524288, +∞ and -∞.
-/
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

/-- `x` is a finite real: the image of some `r : ℝ` in the extended reals. -/
def IsReal (x : EReal) : Prop := ∃ r : ℝ, x = (r : EReal)

/-- `x` is a positive finite real. -/
def IsPosReal (x : EReal) : Prop := ∃ r : ℝ, 0 < r ∧ x = (r : EReal)

/-! ## The predicate -/

/-- The image of a real is a finite real. -/
theorem isReal_coe (r : ℝ) : IsReal (r : EReal) := ⟨r, rfl⟩

/-- Zero is a finite real. -/
theorem isReal_zero : IsReal 0 := ⟨0, EReal.coe_zero.symm⟩

/-- One is a finite real. -/
theorem isReal_one : IsReal 1 := ⟨1, EReal.coe_one.symm⟩

/-- A finite real is not `-∞`. -/
theorem IsReal.ne_bot {x : EReal} (hx : IsReal x) : x ≠ ⊥ := by
  obtain ⟨r, rfl⟩ := hx; exact EReal.coe_ne_bot r

/-- A finite real is not `+∞`. -/
theorem IsReal.ne_top {x : EReal} (hx : IsReal x) : x ≠ ⊤ := by
  obtain ⟨r, rfl⟩ := hx; exact EReal.coe_ne_top r

/-- The finite reals are exactly the extended reals other than the two infinities. -/
theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

/-- A positive finite real is a finite real. -/
theorem IsPosReal.isReal {x : EReal} (hx : IsPosReal x) : IsReal x := by
  obtain ⟨r, _, rfl⟩ := hx; exact ⟨r, rfl⟩

/-- A positive finite real is above zero in the order of the extended reals. -/
theorem IsPosReal.pos {x : EReal} (hx : IsPosReal x) : 0 < x := by
  obtain ⟨r, hr, rfl⟩ := hx; exact EReal.coe_pos.mpr hr

/-- A positive finite real is not zero. -/
theorem IsPosReal.ne_zero {x : EReal} (hx : IsPosReal x) : x ≠ 0 := hx.pos.ne'

/-- The image of a positive real is a positive finite real. -/
theorem isPosReal_coe {r : ℝ} (hr : 0 < r) : IsPosReal (r : EReal) := ⟨r, hr, rfl⟩

/-! ## Sum, difference, product, negation -/

/-- The sum of two finite reals is a finite real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite reals is a finite real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite reals is a finite real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite real is a finite real. -/
theorem IsReal.neg {x : EReal} (hx : IsReal x) : IsReal (-x) := by
  obtain ⟨a, rfl⟩ := hx; exact ⟨-a, (EReal.coe_neg a).symm⟩

/-- The sum of two positive finite reals is a positive finite real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive finite reals is a positive finite real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-! ## Finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of extended reals that are termwise the images of reals is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- A finite sum of finite reals is a finite real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum over a finite type of finite reals is a finite real. -/
theorem IsReal.sum_univ {ι : Type*} [Fintype ι] (f : ι → EReal) (h : ∀ i, IsReal (f i)) :
    IsReal (∑ i, f i) :=
  IsReal.sum Finset.univ f fun i _ => h i

/-- A finite sum, over a nonempty index set, of positive finite reals is a positive finite real. -/
theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

/-- A sum over a nonempty finite type of positive finite reals is a positive finite real, hence not zero. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-! ## The ideal quotient -/

/-- The ideal quotient of two reals with a nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The ideal quotient of a finite real by a nonzero real is a finite real. -/
theorem IsReal.div_coe {x : EReal} (hx : IsReal x) {b : ℝ} (hb : b ≠ 0) : IsReal (Ideal.div x (b : EReal)) := by
  obtain ⟨a, rfl⟩ := hx; exact ⟨a / b, div_coe_coe a hb⟩

/-- The ideal quotient of a finite real by a nonzero finite real is a finite real. -/
theorem IsReal.div {x y : EReal} (hx : IsReal x) (hy : IsReal y) (hy0 : y ≠ 0) : IsReal (Ideal.div x y) := by
  obtain ⟨b, rfl⟩ := hy
  exact hx.div_coe (EReal.coe_ne_zero.mp hy0)

/-- The ideal quotient of a finite real by a positive finite real is a finite real. -/
theorem IsReal.div_pos {x y : EReal} (hx : IsReal x) (hy : IsPosReal y) : IsReal (Ideal.div x y) :=
  hx.div hy.isReal hy.ne_zero

/-! ## The ideal exponential -/

/-- The ideal exponential of a finite real is a positive finite real. -/
theorem IsReal.exp_pos {x : EReal} (hx : IsReal x) : IsPosReal (Ideal.exp x) := by
  obtain ⟨a, rfl⟩ := hx; exact ⟨Real.exp a, Real.exp_pos a, Ideal.exp_coe a⟩

/-- The ideal exponential of a finite real is a finite real. -/
theorem IsReal.exp {x : EReal} (hx : IsReal x) : IsReal (Ideal.exp x) := hx.exp_pos.isReal

/-! ## Maximum, minimum, and a fold of the maximum from `-∞` -/

/-- The maximum of two finite reals is a finite real. -/
theorem IsReal.max {x y : EReal} (hx : IsReal x) (hy : IsReal y) : IsReal (max x y) := by
  rcases max_choice x y with h | h <;> rw [h] <;> assumption

/-- The minimum of two finite reals is a finite real. -/
theorem IsReal.min {x y : EReal} (hx : IsReal x) (hy : IsReal y) : IsReal (min x y) := by
  rcases min_choice x y with h | h <;> rw [h] <;> assumption

/-- A fold of the maximum from `-∞` over finite reals is `-∞` or a finite real, and a finite real as soon as
    the index set is nonempty. The operation is any one that IS the maximum (the order's `max`, or the ideal
    instance's `maximumf`, which carry different commutativity and associativity witnesses). -/
theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

/-- The maximum of a nonempty finite family of finite reals, folded from `-∞`, is a finite real. -/
theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

/-- The same for the order's own `max`. -/
theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

/-- The same for the ideal instance's `maximumf`, at any format. -/
theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

/-- A fold of the maximum from a finite real over finite reals is a finite real, whatever the index set. -/
theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

/-- Every member of the family is at most the fold of the maximum over it. -/
theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

/-! ## Absolute value below `+∞` -/

/-- An extended real whose absolute value `max x (-x)` is below `+∞` is a finite real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-! ## Four f32 words -/

/-- The f32 word `0x00000000` denotes the real `0`. -/
theorem ofBits_zero : Ideal.ofBits .f32 0x00000000#32 = ((0 : ℝ) : EReal) := by
  rw [Ideal.ofBits_zero_f32, EReal.coe_zero]

/-- The f32 word `0x00000000` denotes a finite real. -/
theorem isReal_ofBits_zero : IsReal (Ideal.ofBits .f32 0x00000000#32) := ⟨0, ofBits_zero⟩

/-- The f32 word `0x49000000` denotes the real `524288 = 2^19`. -/
theorem ofBits_524288 : Ideal.ofBits .f32 0x49000000#32 = ((524288 : ℝ) : EReal) := by
  simp [Ideal.ofBits, Ideal.ieee, -EReal.coe_mul]; norm_num

/-- The real `524288` is not zero. -/
theorem real_524288_ne_zero : (524288 : ℝ) ≠ 0 := by norm_num

/-- The f32 word `0x7F800000` denotes `+∞`. -/
theorem ofBits_pos_inf : Ideal.ofBits .f32 0x7F800000#32 = ⊤ := by
  simp [Ideal.ofBits, Ideal.ieee]

/-- The f32 word `0xFF800000` denotes `-∞`. -/
theorem ofBits_neg_inf : Ideal.ofBits .f32 0xFF800000#32 = ⊥ := by
  simp [Ideal.ofBits, Ideal.ieee]

end Cert.LibReal

end
-- ==== Proof.Embed.lean ====
/-
  The node embedder as mathematics, with no program in sight.

  A node is a row `x` of 257 features. Its embedding mixes a plain linear layer with a
  "small-world" layer through a scalar gate `a = 1 / (1 + exp (-w))`:

      mixed  =  (1 - a) · (x·W + b)  +  a · ((x·W_reg + b_reg) + c · (x·W_rand))

  with `c` the f32 word nearest one tenth. The same number can be had from ONE product against an
  effective weight and bias,

      W_eff = ((1 - a)·W + a·W_reg) + (a·c)·W_rand ,   b_eff = (1 - a)·b + a·b_reg ,
      fused = x·W_eff + b_eff .

  Over the extended reals the two agree only where every entry is a finite real: the step from one to
  the other distributes a product over a sum and pulls a factor out of a finite sum, and both fail
  at an infinity. `fused_eq_mixed` is that law; the rest of the module lays it over the arrays'
  index types.
-/
import Idealize.ShloMosaic.PureOps.Ideal
import Idealize.ShloMosaic.PureOps.Ideal.Laws
import Idealize.ShloMosaic.Lib.ValueIdx
import proofs.«413976_j6330781794648_3_alg».proof.Proof.LibReal

noncomputable section

namespace Cert.Embed

open Idealize.ShloMosaic Idealize.ShloMosaic.ValueIdx Cert.LibReal
open scoped BigOperators

/-! ## The two words, and the gate -/

/-- The f32 word of one, as an extended real. -/
def one : EReal := Ideal.ofBits .f32 0x3F800000#32

/-- The f32 word nearest one tenth, as an extended real. -/
def tenth : EReal := Ideal.ofBits .f32 0x3DCCCCCD#32

/-- The word of one denotes the real one. -/
theorem one_eq_coe : one = ((1 : ℝ) : EReal) := by
  unfold one
  simp [Ideal.ofBits, Ideal.ieee, -EReal.coe_mul]
  norm_num

/-- The word nearest one tenth denotes a finite real. -/
theorem isReal_tenth : IsReal tenth := by
  unfold tenth
  simp only [Ideal.ofBits, Ideal.ieee]
  norm_num
  exact ⟨_, rfl⟩

theorem isReal_one : IsReal one := ⟨1, one_eq_coe⟩

/-- The gate: the logistic function of the integration weight, spelled `1 / (1 + exp (-w))`. -/
def gate (w : EReal) : EReal := Ideal.div one (one + Ideal.exp (-w))

/-- The gate of a finite weight is a finite real: the exponential is positive, so the divisor is a
    positive real. -/
theorem isReal_gate {w : EReal} (hw : IsReal w) : IsReal (gate w) := by
  unfold gate
  refine isReal_one.div_pos ?_
  have h1 : IsPosReal one := by rw [one_eq_coe]; exact isPosReal_coe one_pos
  exact h1.add hw.neg.exp_pos

/-! ## One output element, in the two arrangements -/

/-- The reference's arrangement: the two layers applied to the row, then mixed by the gate. -/
def mixed (a : EReal) (x W Wg Wn : Fin 257 → EReal) (b bg : EReal) : EReal :=
  (one - a) * ((∑ d, x d * W d) + b) + a * (((∑ d, x d * Wg d) + bg) + tenth * ∑ d, x d * Wn d)

/-- The kernel's arrangement: the row against the gate-mixed weights, plus the gate-mixed bias. -/
def fused (a : EReal) (x W Wg Wn : Fin 257 → EReal) (b bg : EReal) : EReal :=
  (∑ d, x d * (((one - a) * W d + a * Wg d) + (a * tenth) * Wn d)) + ((one - a) * b + a * bg)

/-- The law over the reals: a linear map of a mix of weights is the mix of the linear maps. -/
theorem fused_eq_mixed_real (a t : ℝ) (x W Wg Wn : Fin 257 → ℝ) (b bg : ℝ) :
    (∑ d, x d * (((1 - a) * W d + a * Wg d) + (a * t) * Wn d)) + ((1 - a) * b + a * bg)
      = (1 - a) * ((∑ d, x d * W d) + b) + a * (((∑ d, x d * Wg d) + bg) + t * ∑ d, x d * Wn d) := by
  have h : ∑ d, x d * (((1 - a) * W d + a * Wg d) + (a * t) * Wn d)
      = (1 - a) * ∑ d, x d * W d + a * ∑ d, x d * Wg d + a * t * ∑ d, x d * Wn d := by
    rw [Finset.mul_sum, Finset.mul_sum, Finset.mul_sum, ← Finset.sum_add_distrib, ← Finset.sum_add_distrib]
    exact Finset.sum_congr rfl fun d _ => by ring
  rw [h]; ring

/-- The law on the extended reals, where every entry is a finite real. -/
theorem fused_eq_mixed {a : EReal} {x W Wg Wn : Fin 257 → EReal} {b bg : EReal}
    (ha : IsReal a) (hx : ∀ d, IsReal (x d)) (hW : ∀ d, IsReal (W d)) (hWg : ∀ d, IsReal (Wg d))
    (hWn : ∀ d, IsReal (Wn d)) (hb : IsReal b) (hbg : IsReal bg) :
    fused a x W Wg Wn b bg = mixed a x W Wg Wn b bg := by
  obtain ⟨ar, rfl⟩ := ha
  obtain ⟨br, rfl⟩ := hb
  obtain ⟨bgr, rfl⟩ := hbg
  obtain ⟨tr, htr⟩ := isReal_tenth
  choose xr hxr using hx
  choose Wr hWr using hW
  choose Wgr hWgr using hWg
  choose Wnr hWnr using hWn
  obtain rfl : x = fun d => (xr d : EReal) := funext hxr
  obtain rfl : W = fun d => (Wr d : EReal) := funext hWr
  obtain rfl : Wg = fun d => (Wgr d : EReal) := funext hWgr
  obtain rfl : Wn = fun d => (Wnr d : EReal) := funext hWnr
  unfold fused mixed
  rw [one_eq_coe, htr]
  simp only [← EReal.coe_mul, ← EReal.coe_add, ← EReal.coe_sub, ← coe_finset_sum]
  exact congrArg _ (fused_eq_mixed_real ar tr xr Wr Wgr Wnr br bgr)

/-! ## The arrays -/

/-- The node features: batch × node × feature. -/
abbrev SX : Shape := ⟨3, ![128, 1027, 257]⟩
/-- A weight matrix: output feature × input feature. -/
abbrev SW : Shape := ⟨2, ![256, 257]⟩
/-- A bias vector. -/
abbrev SB : Shape := ⟨1, ![256]⟩
/-- A scalar. -/
abbrev S0 : Shape := ⟨0, ![]⟩
/-- The embeddings of one node per batch entry. -/
abbrev SRow : Shape := ⟨3, ![128, 1, 256]⟩
/-- The embeddings of the 1024 candidate nodes per batch entry. -/
abbrev SCand : Shape := ⟨3, ![128, 1024, 256]⟩

/-- The source node, the destination node and the depot node of a batch entry. -/
abbrev nodeSrc : Fin 1027 := ⟨0, by omega⟩
abbrev nodeDst : Fin 1027 := ⟨1025, by omega⟩
abbrev nodeDep : Fin 1027 := ⟨1026, by omega⟩

/-- The gate-mixed weight matrix, entry by entry. -/
def effW (w : FVec Ideal S0 .f32) (W Wg Wn : FVec Ideal SW .f32) : FVec Ideal SW .f32 := fun j =>
  ((one - gate (w ix0)) * W j + gate (w ix0) * Wg j) + (gate (w ix0) * tenth) * Wn j

/-- The gate-mixed bias, entry by entry. -/
def effB (w : FVec Ideal S0 .f32) (b bg : FVec Ideal SB .f32) : FVec Ideal SB .f32 := fun j =>
  (one - gate (w ix0)) * b j + gate (w ix0) * bg j

/-- Output feature `e` of node `n` of batch entry `p` under ONE weight matrix and bias: the node's row against
    the matrix's row `e`, plus the bias. -/
def affine (x : FVec Ideal SX .f32) (We : FVec Ideal SW .f32) (be : FVec Ideal SB .f32)
    (p : Fin 128) (n : Fin 1027) (e : Fin 256) : EReal :=
  (∑ d : Fin 257, x (ix3 p n d) * We (ix2 e d)) + be (ix1 e)

/-- The same output feature in the reference's arrangement. -/
def embed (x : FVec Ideal SX .f32) (W Wg Wn : FVec Ideal SW .f32) (b bg : FVec Ideal SB .f32)
    (w : FVec Ideal S0 .f32) (p : Fin 128) (n : Fin 1027) (e : Fin 256) : EReal :=
  mixed (gate (w ix0)) (fun d => x (ix3 p n d)) (fun d => W (ix2 e d)) (fun d => Wg (ix2 e d))
    (fun d => Wn (ix2 e d)) (b (ix1 e)) (bg (ix1 e))

/-- One product against the gate-mixed weight and bias is the mixed embedding, where all inputs are finite reals. -/
theorem affine_eff_eq_embed {x : FVec Ideal SX .f32} {W Wg Wn : FVec Ideal SW .f32} {b bg : FVec Ideal SB .f32}
    {w : FVec Ideal S0 .f32}
    (hx : ∀ j, IsReal (x j)) (hW : ∀ j, IsReal (W j)) (hWg : ∀ j, IsReal (Wg j)) (hWn : ∀ j, IsReal (Wn j))
    (hb : ∀ j, IsReal (b j)) (hbg : ∀ j, IsReal (bg j)) (hw : ∀ j, IsReal (w j))
    (p : Fin 128) (n : Fin 1027) (e : Fin 256) :
    affine x (effW w W Wg Wn) (effB w b bg) p n e = embed x W Wg Wn b bg w p n e :=
  fused_eq_mixed (isReal_gate (hw _)) (fun _ => hx _) (fun _ => hW _) (fun _ => hWg _) (fun _ => hWn _) (hb _) (hbg _)

/-- An array holding, for every batch entry, ONE node's embedding: node `n` of each entry. -/
def rowArr (f : Fin 128 → Fin 1027 → Fin 256 → EReal) (n : Fin 1027) : FVec Ideal SRow .f32 :=
  fun i => f (i 0) n (i 2)

/-- An array holding the candidate nodes' embeddings: entry `q` along the node axis is node `q + 1`. -/
def candArr (f : Fin 128 → Fin 1027 → Fin 256 → EReal) : FVec Ideal SCand .f32 :=
  fun i => f (i 0) ⟨(i 1).val + 1, by have h : (i 1).val < 1024 := (i 1).isLt; omega⟩ (i 2)

/-- The one-node array of the fused form is that of the mixed form, where all inputs are finite reals. -/
theorem rowArr_affine_eq {x : FVec Ideal SX .f32} {W Wg Wn : FVec Ideal SW .f32} {b bg : FVec Ideal SB .f32}
    {w : FVec Ideal S0 .f32}
    (hx : ∀ j, IsReal (x j)) (hW : ∀ j, IsReal (W j)) (hWg : ∀ j, IsReal (Wg j)) (hWn : ∀ j, IsReal (Wn j))
    (hb : ∀ j, IsReal (b j)) (hbg : ∀ j, IsReal (bg j)) (hw : ∀ j, IsReal (w j)) (n : Fin 1027) :
    rowArr (affine x (effW w W Wg Wn) (effB w b bg)) n = rowArr (embed x W Wg Wn b bg w) n :=
  funext fun i => affine_eff_eq_embed hx hW hWg hWn hb hbg hw (i 0) n (i 2)

/-- The candidates' array of the fused form is that of the mixed form, where all inputs are finite reals. -/
theorem candArr_affine_eq {x : FVec Ideal SX .f32} {W Wg Wn : FVec Ideal SW .f32} {b bg : FVec Ideal SB .f32}
    {w : FVec Ideal S0 .f32}
    (hx : ∀ j, IsReal (x j)) (hW : ∀ j, IsReal (W j)) (hWg : ∀ j, IsReal (Wg j)) (hWn : ∀ j, IsReal (Wn j))
    (hb : ∀ j, IsReal (b j)) (hbg : ∀ j, IsReal (bg j)) (hw : ∀ j, IsReal (w j)) :
    candArr (affine x (effW w W Wg Wn) (effB w b bg)) = candArr (embed x W Wg Wn b bg w) :=
  funext fun i => affine_eff_eq_embed hx hW hWg hWn hb hbg hw (i 0) _ (i 2)

end Cert.Embed

end
-- ==== Proof.Finite.lean ====
/-
  Finiteness, read out of the precondition.

  The precondition is one predicate of the thirteen argument arrays: for each array, "every entry's absolute
  value is below +∞", the thirteen answers joined by `and`. Where it is all ones, every entry of every
  argument is therefore a finite real: neither infinity passes `|x| < +∞`.
-/
import proofs.«413976_j6330781794648_3_alg».proof.Pre_finite_inputs
import proofs.«413976_j6330781794648_3_alg».proof.Proof.LibReal
import Idealize.ShloMosaic.Lib.ReduceAll
import Idealize.ShloMosaic.Lib.ValueIdx

noncomputable section

namespace Cert.Finite

open Idealize.ShloMosaic Cert.LibReal Cert.Pre_finite_inputs

/-- The scalar shape has exactly one index. -/
instance : Subsingleton S_.Idx := ⟨fun a b => funext fun d => d.elim0⟩

/-- A one-bit word made from a decision is `1` only where the decided proposition holds. -/
theorem of_ofBool_decide {p : Prop} [Decidable p] (h : BitVec.ofBool (decide p) = 1#1) : p := by
  by_contra hn
  rw [decide_eq_false hn] at h
  exact absurd h (by decide)

/-- The ideal comparison "less than" answers `1` only where the left operand is below the right one in the
    order of the extended reals. -/
theorem lt_of_cmp_olt {x y : EReal} (h : Ideal.cmp .olt x y = 1#1) : x < y :=
  of_ofBool_decide h

/-- One entry. Where `|a i| < +∞` holds as a one-bit word, `+∞` being the scalar word `0x7F800000` spread over
    the shape, the entry `a i` is a finite real: the absolute value is `max x (-x)`, the spread scalar reads the
    same word at every index, and that word denotes `⊤`. -/
theorem isReal_of_entry {s : Shape} (hb : S_.BroadcastsInDim s (![] : Fin 0 → Fin s.rank))
    (a : FVec Ideal s .f32) (i : s.Idx)
    (h : cmpf .olt (Host.absf a) (broadcastInDim s ![] hb (constant S_ .f32 0x7F800000#32)) i = 1#1) :
    IsReal (a i) := by
  have h1 : Ideal.cmp .olt (Max.max (a i) (-(a i))) (Ideal.ofBits .f32 0x7F800000#32) = 1#1 := h
  rw [ofBits_pos_inf] at h1
  exact isReal_of_abs_lt_top (lt_of_cmp_olt h1)

/-- One array. Where the conjunction over ALL axes of the entrywise test `|a i| < +∞` is `1`, every entry of
    the array is a finite real: a conjunction that came out `1` met only `1`s. -/
theorem isReal_of_all {s : Shape} {axes : List (Fin s.rank)}
    (hb : S_.BroadcastsInDim s (![] : Fin 0 → Fin s.rank)) (hr : s.ReducesTo axes S_) (hu : 0 < S_.numel)
    (a : FVec Ideal s .f32)
    (h : Host.reduce IntOp.andi
        (cmpf .olt (Host.absf a) (broadcastInDim s ![] hb (constant S_ .f32 0x7F800000#32)))
        (constantI S_ 1 1#1) hr hu ValueIdx.ix0 = 1#1) :
    ∀ j, IsReal (a j) := fun j =>
  isReal_of_entry hb a j (Host.reduce_andi_all _ _ hr hu _ h j)

/-- The scalar argument: the same test with no spreading, `+∞` being already of the scalar's shape. -/
theorem isReal_of_scalar {axes : List (Fin S_.rank)} (hr : S_.ReducesTo axes S_) (hu : 0 < S_.numel)
    (a : FVec Ideal S_ .f32)
    (h : Host.reduce IntOp.andi (cmpf .olt (Host.absf a) (constant S_ .f32 0x7F800000#32))
        (constantI S_ 1 1#1) hr hu ValueIdx.ix0 = 1#1) :
    ∀ j, IsReal (a j) := fun j => by
  have h0 := Host.reduce_andi_all _ _ hr hu _ h j
  have h1 : Ideal.cmp .olt (Max.max (a j) (-(a j))) (Ideal.ofBits .f32 0x7F800000#32) = 1#1 := h0
  rw [ofBits_pos_inf] at h1
  exact isReal_of_abs_lt_top (lt_of_cmp_olt h1)

/-- Where the precondition's predicate is all ones, every entry of every argument array is a finite real. -/
theorem isReal_of_fn [Cert.Pre_finite_inputs.Facts]
    (a0 : FVec Ideal S128x1027x257 .f32) (a1 : FVec Ideal S256x257 .f32) (a2 : FVec Ideal S256 .f32)
    (a3 : FVec Ideal S256x257 .f32) (a4 : FVec Ideal S256 .f32) (a5 : FVec Ideal S256x257 .f32)
    (a6 : FVec Ideal S256 .f32) (a7 : FVec Ideal S256x257 .f32) (a8 : FVec Ideal S256 .f32)
    (a9 : FVec Ideal S256x257 .f32) (a10 : FVec Ideal S256 .f32) (a11 : FVec Ideal S256x257 .f32)
    (a12 : FVec Ideal S_ .f32)
    (h : fn (F := Ideal) a0 a1 a2 a3 a4 a5 a6 a7 a8 a9 a10 a11 a12 = fun _ => 1#1) :
    (∀ j, IsReal (a0 j)) ∧ (∀ j, IsReal (a1 j)) ∧ (∀ j, IsReal (a2 j)) ∧ (∀ j, IsReal (a3 j))
      ∧ (∀ j, IsReal (a4 j)) ∧ (∀ j, IsReal (a5 j)) ∧ (∀ j, IsReal (a6 j)) ∧ (∀ j, IsReal (a7 j))
      ∧ (∀ j, IsReal (a8 j)) ∧ (∀ j, IsReal (a9 j)) ∧ (∀ j, IsReal (a10 j)) ∧ (∀ j, IsReal (a11 j))
      ∧ (∀ j, IsReal (a12 j)) := by
  have h0 := congrFun h ValueIdx.ix0
  dsimp only [fn, fn_part1, fn_part2, fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all _ _ _ a0 e0, isReal_of_all _ _ _ a1 e1, isReal_of_all _ _ _ a2 e2,
    isReal_of_all _ _ _ a3 e3, isReal_of_all _ _ _ a4 e4, isReal_of_all _ _ _ a5 e5,
    isReal_of_all _ _ _ a6 e6, isReal_of_all _ _ _ a7 e7, isReal_of_all _ _ _ a8 e8,
    isReal_of_all _ _ _ a9 e9, isReal_of_all _ _ _ a10 e10, isReal_of_all _ _ _ a11 e11,
    isReal_of_scalar _ _ a12 e12⟩

end Cert.Finite

end
-- ==== Proof.RefValue.lean ====
/-
  The reference, read index by index.

  Each of the reference's four results is, at every index, the mixed embedding of one node: the source
  node (row 0), the candidates (rows 1 … 1024), the destination (row 1025) and the depot (row 1026) of
  each batch entry, each through its own linear layer and the shared small-world layer.

  Every result is built the same way. A band of rows is cut out of the node features; the band is
  multiplied against three weight matrices (the layer's own, the regular one, the random one), two of
  the products get a bias vector spread over the batch, the random product is scaled by one tenth,
  and the gate `1 / (1 + exp (-w))`, a single number, mixes the two sides. Reading one entry of
  the result therefore needs two facts only: what one entry of a band's product is (a sum over the
  257 features of the node the band's row stands for), and what one entry of a spread bias is. The
  rest is the same arithmetic expression on both sides.
-/
import proofs.«413976_j6330781794648_3_alg».proof.Proof.Gen.ReferenceIdeal.Read
import proofs.«413976_j6330781794648_3_alg».proof.Proof.Embed

noncomputable section

namespace Cert.RefValue

open Cert.ReferenceIdeal Cert.ReferenceIdeal.Read Idealize.ShloMosaic Idealize.ShloMosaic.ValueIdx Cert.Embed
open scoped BigOperators

/-! ## One entry of a band's product, and of a spread bias

The one-row bands have a node axis of length one, so the band's only row is the node the band was cut
at; the candidates' band has 1024 rows, and its row `q` is node `q + 1`. -/

/-- One entry of the source band's product: the band's row is node 0. -/
theorem srcDot (x0 : FVec Ideal S128x1027x257 .f32) (W : FVec Ideal S256x257 .f32)
    (p : Fin 128) (q : Fin 1) (e : Fin 256) :
    val_main_v8 (F := Ideal) x0 W (ix3 p q e) = ∑ d : Fin 257, x0 (ix3 p nodeSrc d) * W (ix2 e d) := by
  rw [val_main_v8_apply]
  refine Finset.sum_congr rfl fun k _ => ?_
  rw [val_main_v0_apply]
  refine congrArg₂ (· * ·) (congrArg x0 (funext fun a => Fin.ext ?_)) (congrArg W (funext fun a => Fin.ext ?_))
  · match a with
    | ⟨0, _⟩ => rfl
    | ⟨1, _⟩ => show q.val = 0; omega
    | ⟨2, _⟩ => rfl
  · match a with
    | ⟨0, _⟩ => rfl
    | ⟨1, _⟩ => rfl

/-- One entry of the candidates' band's product: the band's row `q` is node `q + 1`. -/
theorem candDot (x0 : FVec Ideal S128x1027x257 .f32) (W : FVec Ideal S256x257 .f32)
    (p : Fin 128) (q : Fin 1024) (e : Fin 256) :
    val_main_v26 (F := Ideal) x0 W (ix3 p q e) = ∑ d : Fin 257, x0 (ix3 p ⟨q.val + 1, by omega⟩ d) * W (ix2 e d) := by
  rw [val_main_v26_apply]
  refine Finset.sum_congr rfl fun k _ => ?_
  rw [val_main_v1_apply]
  refine congrArg₂ (· * ·) (congrArg x0 (funext fun a => Fin.ext ?_)) (congrArg W (funext fun a => Fin.ext ?_))
  · match a with
    | ⟨0, _⟩ => rfl
    | ⟨1, _⟩ => show 1 + q.val = q.val + 1; omega
    | ⟨2, _⟩ => rfl
  · match a with
    | ⟨0, _⟩ => rfl
    | ⟨1, _⟩ => rfl

/-- One entry of the destination band's product: the band's row is node 1025. -/
theorem dstDot (x0 : FVec Ideal S128x1027x257 .f32) (W : FVec Ideal S256x257 .f32)
    (p : Fin 128) (q : Fin 1) (e : Fin 256) :
    val_main_v44 (F := Ideal) x0 W (ix3 p q e) = ∑ d : Fin 257, x0 (ix3 p nodeDst d) * W (ix2 e d) := by
  rw [val_main_v44_apply]
  refine Finset.sum_congr rfl fun k _ => ?_
  rw [val_main_v2_apply]
  refine congrArg₂ (· * ·) (congrArg x0 (funext fun a => Fin.ext ?_)) (congrArg W (funext fun a => Fin.ext ?_))
  · match a with
    | ⟨0, _⟩ => rfl
    | ⟨1, _⟩ => show 1025 + q.val = 1025; omega
    | ⟨2, _⟩ => rfl
  · match a with
    | ⟨0, _⟩ => rfl
    | ⟨1, _⟩ => rfl

/-- One entry of the depot band's product: the band's row is node 1026. -/
theorem depDot (x0 : FVec Ideal S128x1027x257 .f32) (W : FVec Ideal S256x257 .f32)
    (p : Fin 128) (q : Fin 1) (e : Fin 256) :
    val_main_v62 (F := Ideal) x0 W (ix3 p q e) = ∑ d : Fin 257, x0 (ix3 p nodeDep d) * W (ix2 e d) := by
  rw [val_main_v62_apply]
  refine Finset.sum_congr rfl fun k _ => ?_
  rw [val_main_v3_apply]
  refine congrArg₂ (· * ·) (congrArg x0 (funext fun a => Fin.ext ?_)) (congrArg W (funext fun a => Fin.ext ?_))
  · match a with
    | ⟨0, _⟩ => rfl
    | ⟨1, _⟩ => show 1026 + q.val = 1026; omega
    | ⟨2, _⟩ => rfl
  · match a with
    | ⟨0, _⟩ => rfl
    | ⟨1, _⟩ => rfl

/-- A bias vector spread over a one-row band: entry `e` of the vector, whatever the batch entry. -/
theorem rowBias (b : FVec Ideal S256 .f32) (p : Fin 128) (q : Fin 1) (e : Fin 256) :
    val_main_v10 (F := Ideal) b (ix3 p q e) = b (ix1 e) := by
  rw [val_main_v10_apply, val_main_v9_apply]
  exact congrArg b (funext fun a => Fin.ext (by match a with | ⟨0, _⟩ => rfl))

/-- A bias vector spread over the candidates' band: entry `e` of the vector, whatever the batch entry and the row. -/
theorem candBias (b : FVec Ideal S256 .f32) (p : Fin 128) (q : Fin 1024) (e : Fin 256) :
    val_main_v28 (F := Ideal) b (ix3 p q e) = b (ix1 e) := by
  rw [val_main_v28_apply, val_main_v27_apply]
  exact congrArg b (funext fun a => Fin.ext (by match a with | ⟨0, _⟩ => rfl))

/-! ## The four results -/

/-- The reference's first result: the source node's embedding. -/
theorem src_eq (x0 : FVec Ideal S128x1027x257 .f32) (x1 : FVec Ideal S256x257 .f32) (x2 : FVec Ideal S256 .f32)
    (x9 : FVec Ideal S256x257 .f32) (x10 : FVec Ideal S256 .f32) (x11 : FVec Ideal S256x257 .f32) (x12 : FVec Ideal S_ .f32) :
    val_main_v25 (F := Ideal) x0 x1 x2 x9 x10 x11 x12 = rowArr (embed x0 x1 x9 x11 x2 x10 x12) nodeSrc := by
  funext i
  obtain ⟨p, q, e, rfl⟩ : ∃ (p : Fin 128) (q : Fin 1) (e : Fin 256), i = ix3 p q e := ⟨i 0, i 1, i 2, eq_ix3 i⟩
  show _ = embed x0 x1 x9 x11 x2 x10 x12 p nodeSrc e
  -- the three products differ in the weight matrix only, the two spread biases in the vector only
  have hreg : val_main_v12 (F := Ideal) x0 x9 = val_main_v8 (F := Ideal) x0 x9 := rfl
  have hrnd : val_main_v16 (F := Ideal) x0 x11 = val_main_v8 (F := Ideal) x0 x11 := rfl
  have hbreg : val_main_v14 (F := Ideal) x10 = val_main_v10 (F := Ideal) x10 := rfl
  simp only [val_main_v25_apply, val_main_v22_apply, val_main_v24_apply, val_main_v21_apply, val_main_v11_apply,
    val_main_v23_apply, val_main_v19_apply, val_main_v20_apply, val_main_v15_apply, val_main_v18_apply,
    val_main_v17_apply, val_main_cst_1_apply, val_main_cst_2_apply, val_main_v7_apply, val_main_cst_0_apply,
    val_main_v6_apply, val_main_cst_apply, val_main_v5_apply, val_main_v4_apply,
    hreg, hrnd, hbreg, srcDot, rowBias,
    Ideal.addf_def, Ideal.subf_def, Ideal.mulf_def, Ideal.hostDivf_def, Ideal.hostUnary_exp_def,
    Ideal.hostNegf_def, Ideal.negf_def, Ideal.ofBits_def]
  -- both sides are now one expression in the gate, the three sums and the two bias entries
  unfold embed mixed gate one tenth
  rfl

/-- The reference's second result: the candidate nodes' embeddings. -/
theorem cand_eq (x0 : FVec Ideal S128x1027x257 .f32) (x7 : FVec Ideal S256x257 .f32) (x8 : FVec Ideal S256 .f32)
    (x9 : FVec Ideal S256x257 .f32) (x10 : FVec Ideal S256 .f32) (x11 : FVec Ideal S256x257 .f32) (x12 : FVec Ideal S_ .f32) :
    val_main_v43 (F := Ideal) x0 x7 x8 x9 x10 x11 x12 = candArr (embed x0 x7 x9 x11 x8 x10 x12) := by
  funext i
  obtain ⟨p, q, e, rfl⟩ : ∃ (p : Fin 128) (q : Fin 1024) (e : Fin 256), i = ix3 p q e := ⟨i 0, i 1, i 2, eq_ix3 i⟩
  show _ = embed x0 x7 x9 x11 x8 x10 x12 p ⟨q.val + 1, by omega⟩ e
  -- the three products differ in the weight matrix only, the two spread biases in the vector only
  have hreg : val_main_v30 (F := Ideal) x0 x9 = val_main_v26 (F := Ideal) x0 x9 := rfl
  have hrnd : val_main_v34 (F := Ideal) x0 x11 = val_main_v26 (F := Ideal) x0 x11 := rfl
  have hbreg : val_main_v32 (F := Ideal) x10 = val_main_v28 (F := Ideal) x10 := rfl
  simp only [val_main_v43_apply, val_main_v40_apply, val_main_v42_apply, val_main_v39_apply, val_main_v29_apply,
    val_main_v41_apply, val_main_v37_apply, val_main_v38_apply, val_main_v33_apply, val_main_v36_apply,
    val_main_v35_apply, val_main_cst_3_apply, val_main_cst_4_apply, val_main_v7_apply, val_main_cst_0_apply,
    val_main_v6_apply, val_main_cst_apply, val_main_v5_apply, val_main_v4_apply,
    hreg, hrnd, hbreg, candDot, candBias,
    Ideal.addf_def, Ideal.subf_def, Ideal.mulf_def, Ideal.hostDivf_def, Ideal.hostUnary_exp_def,
    Ideal.hostNegf_def, Ideal.negf_def, Ideal.ofBits_def]
  -- both sides are now one expression in the gate, the three sums and the two bias entries
  unfold embed mixed gate one tenth
  rfl

/-- The reference's third result: the destination node's embedding. -/
theorem dst_eq (x0 : FVec Ideal S128x1027x257 .f32) (x3 : FVec Ideal S256x257 .f32) (x4 : FVec Ideal S256 .f32)
    (x9 : FVec Ideal S256x257 .f32) (x10 : FVec Ideal S256 .f32) (x11 : FVec Ideal S256x257 .f32) (x12 : FVec Ideal S_ .f32) :
    val_main_v61 (F := Ideal) x0 x3 x4 x9 x10 x11 x12 = rowArr (embed x0 x3 x9 x11 x4 x10 x12) nodeDst := by
  funext i
  obtain ⟨p, q, e, rfl⟩ : ∃ (p : Fin 128) (q : Fin 1) (e : Fin 256), i = ix3 p q e := ⟨i 0, i 1, i 2, eq_ix3 i⟩
  show _ = embed x0 x3 x9 x11 x4 x10 x12 p nodeDst e
  -- the three products differ in the weight matrix only, the two spread biases in the vector only
  have hreg : val_main_v48 (F := Ideal) x0 x9 = val_main_v44 (F := Ideal) x0 x9 := rfl
  have hrnd : val_main_v52 (F := Ideal) x0 x11 = val_main_v44 (F := Ideal) x0 x11 := rfl
  have hb : val_main_v46 (F := Ideal) x4 = val_main_v10 (F := Ideal) x4 := rfl
  have hbreg : val_main_v50 (F := Ideal) x10 = val_main_v10 (F := Ideal) x10 := rfl
  simp only [val_main_v61_apply, val_main_v58_apply, val_main_v60_apply, val_main_v57_apply, val_main_v47_apply,
    val_main_v59_apply, val_main_v55_apply, val_main_v56_apply, val_main_v51_apply, val_main_v54_apply,
    val_main_v53_apply, val_main_cst_5_apply, val_main_cst_6_apply, val_main_v7_apply, val_main_cst_0_apply,
    val_main_v6_apply, val_main_cst_apply, val_main_v5_apply, val_main_v4_apply,
    hreg, hrnd, hb, hbreg, dstDot, rowBias,
    Ideal.addf_def, Ideal.subf_def, Ideal.mulf_def, Ideal.hostDivf_def, Ideal.hostUnary_exp_def,
    Ideal.hostNegf_def, Ideal.negf_def, Ideal.ofBits_def]
  -- both sides are now one expression in the gate, the three sums and the two bias entries
  unfold embed mixed gate one tenth
  rfl

/-- The reference's fourth result: the depot node's embedding. -/
theorem dep_eq (x0 : FVec Ideal S128x1027x257 .f32) (x5 : FVec Ideal S256x257 .f32) (x6 : FVec Ideal S256 .f32)
    (x9 : FVec Ideal S256x257 .f32) (x10 : FVec Ideal S256 .f32) (x11 : FVec Ideal S256x257 .f32) (x12 : FVec Ideal S_ .f32) :
    val_main_v79 (F := Ideal) x0 x5 x6 x9 x10 x11 x12 = rowArr (embed x0 x5 x9 x11 x6 x10 x12) nodeDep := by
  funext i
  obtain ⟨p, q, e, rfl⟩ : ∃ (p : Fin 128) (q : Fin 1) (e : Fin 256), i = ix3 p q e := ⟨i 0, i 1, i 2, eq_ix3 i⟩
  show _ = embed x0 x5 x9 x11 x6 x10 x12 p nodeDep e
  -- the three products differ in the weight matrix only, the two spread biases in the vector only
  have hreg : val_main_v66 (F := Ideal) x0 x9 = val_main_v62 (F := Ideal) x0 x9 := rfl
  have hrnd : val_main_v70 (F := Ideal) x0 x11 = val_main_v62 (F := Ideal) x0 x11 := rfl
  have hb : val_main_v64 (F := Ideal) x6 = val_main_v10 (F := Ideal) x6 := rfl
  have hbreg : val_main_v68 (F := Ideal) x10 = val_main_v10 (F := Ideal) x10 := rfl
  simp only [val_main_v79_apply, val_main_v76_apply, val_main_v78_apply, val_main_v75_apply, val_main_v65_apply,
    val_main_v77_apply, val_main_v73_apply, val_main_v74_apply, val_main_v69_apply, val_main_v72_apply,
    val_main_v71_apply, val_main_cst_7_apply, val_main_cst_8_apply, val_main_v7_apply, val_main_cst_0_apply,
    val_main_v6_apply, val_main_cst_apply, val_main_v5_apply, val_main_v4_apply,
    hreg, hrnd, hb, hbreg, depDot, rowBias,
    Ideal.addf_def, Ideal.subf_def, Ideal.mulf_def, Ideal.hostDivf_def, Ideal.hostUnary_exp_def,
    Ideal.hostNegf_def, Ideal.negf_def, Ideal.ofBits_def]
  -- both sides are now one expression in the gate, the three sums and the two bias entries
  unfold embed mixed gate one tenth
  rfl

end Cert.RefValue

end
-- ==== Proof.Payload.lean ====
/-
  What the kernel body stores, index by index.

  The body holds four batch entries at a time: their 1027 node rows `x`, and four (weight, bias) pairs.
  It multiplies ALL 4·1027 rows by the candidates' weight in one product, adds the bias, and keeps rows
  1 … 1024 of each entry; and it multiplies row 0, row 1025 and row 1026 of each entry by the source's, the
  destination's and the depot's weight. Every stored element is therefore one row of `x` against one row
  of a weight matrix, plus one bias entry. (The casts to a narrower float format are the identity on
  extended reals, and a product into a zero accumulator is the plain sum.)
-/
import proofs.«413976_j6330781794648_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Payload

open Cert.KernelIdeal Cert.KernelIdeal.Gen Idealize.ShloMosaic Idealize.ShloMosaic.ValueIdx
open scoped BigOperators

/-! ## The small product: four rows of 257 against the weight's 256 rows

The operand indices of the product at output index (row, column) and contraction position: the left operand is read at
(row, position), the right at (column, position). -/

theorem lhsS_0 (i : S4x256.Idx) (q : dot_S4x257_S256x257_S4x256_1_1_0_0_n_n.contr.Idx) :
    (dot_S4x257_S256x257_S4x256_1_1_0_0_n_n.lhsIdx i q 0).val = (i 0).val := by
  unfold DotDims.lhsIdx
  rw [dif_neg (show ¬(0 : Fin S4x257.rank) ∈ dot_S4x257_S256x257_S4x256_1_1_0_0_n_n.lhsBatch by decide), dif_pos (show (0 : Fin S4x257.rank) ∈ dot_S4x257_S256x257_S4x256_1_1_0_0_n_n.lhsNonContracting by decide)]
  rfl
theorem lhsS_1 (i : S4x256.Idx) (q : dot_S4x257_S256x257_S4x256_1_1_0_0_n_n.contr.Idx) :
    (dot_S4x257_S256x257_S4x256_1_1_0_0_n_n.lhsIdx i q 1).val = (q ⟨0, by decide⟩).val :=
  dot_S4x257_S256x257_S4x256_1_1_0_0_n_n.lhsIdx_val_of_single rfl i q
theorem rhsS_0 (i : S4x256.Idx) (q : dot_S4x257_S256x257_S4x256_1_1_0_0_n_n.contr.Idx) :
    (dot_S4x257_S256x257_S4x256_1_1_0_0_n_n.rhsIdx i q 0).val = (i 1).val := by
  unfold DotDims.rhsIdx
  rw [dif_neg (show ¬(0 : Fin S256x257.rank) ∈ dot_S4x257_S256x257_S4x256_1_1_0_0_n_n.rhsBatch by decide), dif_pos (show (0 : Fin S256x257.rank) ∈ dot_S4x257_S256x257_S4x256_1_1_0_0_n_n.rhsNonContracting by decide)]
  rfl
theorem rhsS_1 (i : S4x256.Idx) (q : dot_S4x257_S256x257_S4x256_1_1_0_0_n_n.contr.Idx) :
    (dot_S4x257_S256x257_S4x256_1_1_0_0_n_n.rhsIdx i q 1).val = (q ⟨0, by decide⟩).val :=
  dot_S4x257_S256x257_S4x256_1_1_0_0_n_n.rhsIdx_val_of_single rfl i q

/-- The small product into a zero accumulator, at row p and column e: the sum over the 257 features of the left
    operand's row p times the right operand's row e. -/
theorem prodS_apply (l : FVec Ideal S4x257 .bf16) (r : FVec Ideal S256x257 .bf16) (p : Fin 4) (e : Fin 256) :
    matmul dot_S4x257_S256x257_S4x256_1_1_0_0_n_n none l r (constant (F := Ideal) S4x256 .f32 0x00000000#32) (ix2 p e)
      = ∑ d : Fin 257, l (ix2 p d) * r (ix2 e d) := by
  refine (Ideal.matmul_constant_zero_apply dot_S4x257_S256x257_S4x256_1_1_0_0_n_n none l r (ix2 p e)).trans ?_
  rw [← Equiv.sum_comp (ValueIdx.contrEquiv1 dot_S4x257_S256x257_S4x256_1_1_0_0_n_n 257 rfl rfl).symm]
  refine Finset.sum_congr rfl fun k _ => ?_
  have hk := ValueIdx.contrEquiv1_symm_val dot_S4x257_S256x257_S4x256_1_1_0_0_n_n 257 rfl rfl k
  have el : dot_S4x257_S256x257_S4x256_1_1_0_0_n_n.lhsIdx (ix2 p e) ((ValueIdx.contrEquiv1 dot_S4x257_S256x257_S4x256_1_1_0_0_n_n 257 rfl rfl).symm k) = ix2 p k := funext fun a => Fin.ext (by
    match a with
    | ⟨0, _⟩ => exact lhsS_0 _ _
    | ⟨1, _⟩ => exact (lhsS_1 _ _).trans hk)
  have er : dot_S4x257_S256x257_S4x256_1_1_0_0_n_n.rhsIdx (ix2 p e) ((ValueIdx.contrEquiv1 dot_S4x257_S256x257_S4x256_1_1_0_0_n_n 257 rfl rfl).symm k) = ix2 e k := funext fun a => Fin.ext (by
    match a with
    | ⟨0, _⟩ => exact rhsS_0 _ _
    | ⟨1, _⟩ => exact (rhsS_1 _ _).trans hk)
  rw [el, er]

/-! ## The large product: all 4·1027 rows against the weight's 256 rows -/

theorem lhsL_0 (i : S4108x256.Idx) (q : dot_S4108x257_S256x257_S4108x256_1_1_0_0_n_n.contr.Idx) :
    (dot_S4108x257_S256x257_S4108x256_1_1_0_0_n_n.lhsIdx i q 0).val = (i 0).val := by
  unfold DotDims.lhsIdx
  rw [dif_neg (show ¬(0 : Fin S4108x257.rank) ∈ dot_S4108x257_S256x257_S4108x256_1_1_0_0_n_n.lhsBatch by decide), dif_pos (show (0 : Fin S4108x257.rank) ∈ dot_S4108x257_S256x257_S4108x256_1_1_0_0_n_n.lhsNonContracting by decide)]
  rfl
theorem lhsL_1 (i : S4108x256.Idx) (q : dot_S4108x257_S256x257_S4108x256_1_1_0_0_n_n.contr.Idx) :
    (dot_S4108x257_S256x257_S4108x256_1_1_0_0_n_n.lhsIdx i q 1).val = (q ⟨0, by decide⟩).val :=
  dot_S4108x257_S256x257_S4108x256_1_1_0_0_n_n.lhsIdx_val_of_single rfl i q
theorem rhsL_0 (i : S4108x256.Idx) (q : dot_S4108x257_S256x257_S4108x256_1_1_0_0_n_n.contr.Idx) :
    (dot_S4108x257_S256x257_S4108x256_1_1_0_0_n_n.rhsIdx i q 0).val = (i 1).val := by
  unfold DotDims.rhsIdx
  rw [dif_neg (show ¬(0 : Fin S256x257.rank) ∈ dot_S4108x257_S256x257_S4108x256_1_1_0_0_n_n.rhsBatch by decide), dif_pos (show (0 : Fin S256x257.rank) ∈ dot_S4108x257_S256x257_S4108x256_1_1_0_0_n_n.rhsNonContracting by decide)]
  rfl
theorem rhsL_1 (i : S4108x256.Idx) (q : dot_S4108x257_S256x257_S4108x256_1_1_0_0_n_n.contr.Idx) :
    (dot_S4108x257_S256x257_S4108x256_1_1_0_0_n_n.rhsIdx i q 1).val = (q ⟨0, by decide⟩).val :=
  dot_S4108x257_S256x257_S4108x256_1_1_0_0_n_n.rhsIdx_val_of_single rfl i q

/-- The large product into a zero accumulator, at row m and column e. -/
theorem prodL_apply (l : FVec Ideal S4108x257 .bf16) (r : FVec Ideal S256x257 .bf16) (m : Fin 4108) (e : Fin 256) :
    matmul dot_S4108x257_S256x257_S4108x256_1_1_0_0_n_n none l r (constant (F := Ideal) S4108x256 .f32 0x00000000#32) (ix2 m e)
      = ∑ d : Fin 257, l (ix2 m d) * r (ix2 e d) := by
  refine (Ideal.matmul_constant_zero_apply dot_S4108x257_S256x257_S4108x256_1_1_0_0_n_n none l r (ix2 m e)).trans ?_
  rw [← Equiv.sum_comp (ValueIdx.contrEquiv1 dot_S4108x257_S256x257_S4108x256_1_1_0_0_n_n 257 rfl rfl).symm]
  refine Finset.sum_congr rfl fun k _ => ?_
  have hk := ValueIdx.contrEquiv1_symm_val dot_S4108x257_S256x257_S4108x256_1_1_0_0_n_n 257 rfl rfl k
  have el : dot_S4108x257_S256x257_S4108x256_1_1_0_0_n_n.lhsIdx (ix2 m e) ((ValueIdx.contrEquiv1 dot_S4108x257_S256x257_S4108x256_1_1_0_0_n_n 257 rfl rfl).symm k) = ix2 m k := funext fun a => Fin.ext (by
    match a with
    | ⟨0, _⟩ => exact lhsL_0 _ _
    | ⟨1, _⟩ => exact (lhsL_1 _ _).trans hk)
  have er : dot_S4108x257_S256x257_S4108x256_1_1_0_0_n_n.rhsIdx (ix2 m e) ((ValueIdx.contrEquiv1 dot_S4108x257_S256x257_S4108x256_1_1_0_0_n_n 257 rfl rfl).symm k) = ix2 e k := funext fun a => Fin.ext (by
    match a with
    | ⟨0, _⟩ => exact rhsL_0 _ _
    | ⟨1, _⟩ => exact (rhsL_1 _ _).trans hk)
  rw [el, er]

/-! ## The layout steps, each read at an index -/

/-- The weight as the product's right operand: recast to its own shape and narrowed, it is the weight itself. -/
theorem weight_apply (W : Vec Ideal S256x257 .f32) (h : S256x257.ShapeCasts S256x257) (hb : FTy.bits .bf16 < FTy.bits .f32)
    (e : Fin 256) (d : Fin 257) :
    (truncf .bf16 (shapeCast S256x257 W h) hb : FVec Ideal S256x257 .bf16) (ix2 e d) = W (ix2 e d) :=
  congrFun (shapeCast_self W h) (ix2 e d)

/-- A [4, 256] value viewed as [4, 1, 256]: entry (p, 0, e) is entry (p, e). -/
theorem unsqueeze_apply (v : FVec Ideal S4x256 .f32) (h : S4x256.ShapeCasts S4x1x256) (p : Fin 4) (e : Fin 256) :
    shapeCast S4x1x256 v h (ix3 p (0 : Fin 1) e) = v (ix2 p e) :=
  shapeCast_apply v h (ix3 p (0 : Fin 1) e) (ix2 p e) (by
    rw [Shape.rowMajor_val_two, Shape.rowMajor_val_three]
    show p.val * 256 + e.val = (p.val * 1 + 0) * 256 + e.val
    omega)

/-- The bias spread over four rows: entry (p, e) is the bias at e. -/
theorem biasRow_apply (b : Vec Ideal S256 .f32) (h1 : S256.ShapeCasts S256) (h2 : S256.ShapeCasts S1x256)
    (h3 : S1x256.Broadcasts S4x256) (p : Fin 4) (e : Fin 256) :
    broadcastTo S4x256 (shapeCast S1x256 (shapeCast S256 b h1) h2) h3 (ix2 p e) = b (ix1 e) := by
  refine (broadcastTo_apply _ h3 (ix2 p e) (ix2 (0 : Fin 1) e) (fun a => match a with
    | ⟨0, _⟩ => by show 0 = (if (1 : Nat) = 1 then 0 else p.val); rw [if_pos rfl]
    | ⟨1, _⟩ => by show e.val = (if (256 : Nat) = 1 then 0 else e.val); rw [if_neg (by decide)])).trans ?_
  refine (shapeCast_apply _ h2 (ix2 (0 : Fin 1) e) (ix1 e) (by
    rw [Shape.rowMajor_val_one, Shape.rowMajor_val_two]
    show e.val = 0 * 256 + e.val
    omega)).trans ?_
  exact congrFun (shapeCast_self b h1) (ix1 e)

/-- Node row r of the four entries, as a [4, 257] matrix: entry (p, d) is feature d of node r of entry p. -/
theorem nodeRow_apply (y : FVec Ideal S4x1027x257 .bf16) (r : Nat) (hr : r < 1027)
    (hs : S4x1027x257.Slices ![0, r, 0] S4x1x257) (hc : S4x1x257.ShapeCasts S4x257) (p : Fin 4) (d : Fin 257) :
    shapeCast S4x257 (extractStridedSlice S4x1x257 ![0, r, 0] y hs) hc (ix2 p d) = y (ix3 p (⟨r, hr⟩ : Fin 1027) d) := by
  refine (shapeCast_apply _ hc (ix2 p d) (ix3 p (0 : Fin 1) d) (by
    rw [Shape.rowMajor_val_two, Shape.rowMajor_val_three]
    show (p.val * 1 + 0) * 257 + d.val = p.val * 257 + d.val
    omega)).trans ?_
  exact extractStridedSlice_apply ![0, r, 0] y hs (ix3 p (0 : Fin 1) d) (ix3 p (⟨r, hr⟩ : Fin 1027) d) (fun a => match a with
    | ⟨0, _⟩ => by show p.val = 0 + p.val; omega
    | ⟨1, _⟩ => by show r = r + 0; omega
    | ⟨2, _⟩ => by show d.val = 0 + d.val; omega)

/-- One node row of each entry against the weight, plus the bias, stored as [4, 1, 256]. -/
theorem rowStore_apply (x : Vec Ideal S4x1027x257 .f32) (W : Vec Ideal S256x257 .f32) (b : Vec Ideal S256 .f32)
    (r : Nat) (hr : r < 1027) (hs : S4x1027x257.Slices ![0, r, 0] S4x1x257) (p : Fin 4) (e : Fin 256) :
    shapeCast S4x1x256
        (addf
          (matmul dot_S4x257_S256x257_S4x256_1_1_0_0_n_n none
            (shapeCast S4x257 (extractStridedSlice S4x1x257 ![0, r, 0] (truncf .bf16 x bitsLt_bf16_f32 : FVec Ideal S4x1027x257 .bf16) hs) shapeCasts_S4x1x257_S4x257)
            (truncf .bf16 (shapeCast S256x257 W shapeCasts_S256x257_S256x257) bitsLt_bf16_f32 : FVec Ideal S256x257 .bf16)
            (constant (F := Ideal) S4x256 .f32 0x00000000#32))
          (broadcastTo S4x256 (shapeCast S1x256 (shapeCast S256 b shapeCasts_S256_S256) shapeCasts_S256_S1x256) broadcasts_S1x256_S4x256))
        shapeCasts_S4x256_S4x1x256 (ix3 p (0 : Fin 1) e)
      = (∑ d : Fin 257, x (ix3 p (⟨r, hr⟩ : Fin 1027) d) * W (ix2 e d)) + b (ix1 e) := by
  refine (unsqueeze_apply _ _ p e).trans ?_
  refine (addf_apply _ _ (ix2 p e)).trans ?_
  rw [prodS_apply, biasRow_apply]
  refine congrArg (· + b (ix1 e)) (Finset.sum_congr rfl fun d _ => ?_)
  rw [nodeRow_apply _ r hr, weight_apply]
  rfl

/-- The four entries' node rows laid end to end: row p·1027 + n of the [4108, 257] matrix is node n of entry p. -/
theorem flatRow_apply (y : FVec Ideal S4x1027x257 .bf16) (h : S4x1027x257.ShapeCasts S4108x257)
    (p : Fin 4) (n : Fin 1027) (d : Fin 257) (m : Fin 4108) (hm : m.val = p.val * 1027 + n.val) :
    shapeCast S4108x257 y h (ix2 m d) = y (ix3 p n d) :=
  shapeCast_apply y h (ix2 m d) (ix3 p n d) (by
    rw [Shape.rowMajor_val_two, Shape.rowMajor_val_three]
    show (p.val * 1027 + n.val) * 257 + d.val = m.val * 257 + d.val
    rw [hm])

/-- The product's [4108, 256] result cut back into the four entries: entry (p, n, e) is row p·1027 + n, column e. -/
theorem unflat_apply (v : FVec Ideal S4108x256 .f32) (h : S4108x256.ShapeCasts S4x1027x256)
    (p : Fin 4) (n : Fin 1027) (e : Fin 256) (m : Fin 4108) (hm : m.val = p.val * 1027 + n.val) :
    shapeCast S4x1027x256 v h (ix3 p n e) = v (ix2 m e) :=
  shapeCast_apply v h (ix3 p n e) (ix2 m e) (by
    rw [Shape.rowMajor_val_two, Shape.rowMajor_val_three]
    show m.val * 256 + e.val = (p.val * 1027 + n.val) * 256 + e.val
    rw [hm])

/-- The bias spread over every node of every entry: entry (p, n, e) is the bias at e. -/
theorem biasAll_apply (b : Vec Ideal S256 .f32) (h1 : S256.ShapeCasts S256) (h2 : S256.ShapeCasts S1x1x256)
    (h3 : S1x1x256.Broadcasts S4x1027x256) (p : Fin 4) (n : Fin 1027) (e : Fin 256) :
    broadcastTo S4x1027x256 (shapeCast S1x1x256 (shapeCast S256 b h1) h2) h3 (ix3 p n e) = b (ix1 e) := by
  refine (broadcastTo_apply _ h3 (ix3 p n e) (ix3 (0 : Fin 1) (0 : Fin 1) e) (fun a => match a with
    | ⟨0, _⟩ => by show 0 = (if (1 : Nat) = 1 then 0 else p.val); rw [if_pos rfl]
    | ⟨1, _⟩ => by show 0 = (if (1 : Nat) = 1 then 0 else n.val); rw [if_pos rfl]
    | ⟨2, _⟩ => by show e.val = (if (256 : Nat) = 1 then 0 else e.val); rw [if_neg (by decide)])).trans ?_
  refine (shapeCast_apply _ h2 (ix3 (0 : Fin 1) (0 : Fin 1) e) (ix1 e) (by
    rw [Shape.rowMajor_val_one, Shape.rowMajor_val_three]
    show e.val = (0 * 1 + 0) * 256 + e.val
    omega)).trans ?_
  exact congrFun (shapeCast_self b h1) (ix1 e)

/-- Keeping nodes 1 … 1024 of each entry: candidate q is node q + 1. -/
theorem candSlice_apply (v : FVec Ideal S4x1027x256 .f32) (h : S4x1027x256.Slices ![0, 1, 0] S4x1024x256)
    (p : Fin 4) (q : Fin 1024) (e : Fin 256) :
    extractStridedSlice S4x1024x256 ![0, 1, 0] v h (ix3 p q e) = v (ix3 p (⟨q.val + 1, by omega⟩ : Fin 1027) e) :=
  extractStridedSlice_apply ![0, 1, 0] v h (ix3 p q e) (ix3 p (⟨q.val + 1, by omega⟩ : Fin 1027) e) (fun a => match a with
    | ⟨0, _⟩ => by show p.val = 0 + p.val; omega
    | ⟨1, _⟩ => by show q.val + 1 = 1 + q.val; omega
    | ⟨2, _⟩ => by show e.val = 0 + e.val; omega)

/-- All node rows against the weight in one product, plus the bias, nodes 1 … 1024 kept. -/
theorem candStore_apply (x : Vec Ideal S4x1027x257 .f32) (W : Vec Ideal S256x257 .f32) (b : Vec Ideal S256 .f32)
    (p : Fin 4) (q : Fin 1024) (e : Fin 256) :
    extractStridedSlice S4x1024x256 ![0, 1, 0]
        (addf
          (shapeCast S4x1027x256
            (matmul dot_S4108x257_S256x257_S4108x256_1_1_0_0_n_n none
              (shapeCast S4108x257 (truncf .bf16 x bitsLt_bf16_f32 : FVec Ideal S4x1027x257 .bf16) shapeCasts_S4x1027x257_S4108x257)
              (truncf .bf16 (shapeCast S256x257 W shapeCasts_S256x257_S256x257) bitsLt_bf16_f32 : FVec Ideal S256x257 .bf16)
              (constant (F := Ideal) S4108x256 .f32 0x00000000#32))
            shapeCasts_S4108x256_S4x1027x256)
          (broadcastTo S4x1027x256 (shapeCast S1x1x256 (shapeCast S256 b shapeCasts_S256_S256) shapeCasts_S256_S1x1x256) broadcasts_S1x1x256_S4x1027x256))
        slices_S4x1027x256_o0_1_0_S4x1024x256 (ix3 p q e)
      = (∑ d : Fin 257, x (ix3 p (⟨q.val + 1, by omega⟩ : Fin 1027) d) * W (ix2 e d)) + b (ix1 e) := by
  have hm : p.val * 1027 + (q.val + 1) < 4108 := by have := p.isLt; have := q.isLt; omega
  refine (candSlice_apply _ _ p q e).trans ?_
  refine (addf_apply _ _ (ix3 p (⟨q.val + 1, by omega⟩ : Fin 1027) e)).trans ?_
  rw [unflat_apply _ _ p (⟨q.val + 1, by omega⟩ : Fin 1027) e ⟨p.val * 1027 + (q.val + 1), hm⟩ rfl, prodL_apply, biasAll_apply]
  refine congrArg (· + b (ix1 e)) (Finset.sum_congr rfl fun d _ => ?_)
  rw [flatRow_apply _ _ p (⟨q.val + 1, by omega⟩ : Fin 1027) d ⟨p.val * 1027 + (q.val + 1), hm⟩ rfl, weight_apply]
  rfl

/-- The candidates' store: entry `p`, candidate `q`, feature `e` is node row `q + 1` of entry `p` against row `e`
    of the weight, plus the bias. -/
theorem pay_cand (x : Vec Ideal S4x1027x257 .f32) (W : Vec Ideal S256x257 .f32) (b : Vec Ideal S256 .f32)
    (p : Fin 4) (q : Fin 1024) (e : Fin 256) :
    k0_pay4 (F := Ideal) x W b (ix3 p q e)
      = (∑ d : Fin 257, x (ix3 p (⟨q.val + 1, by omega⟩ : Fin 1027) d) * W (ix2 e d)) + b (ix1 e) :=
  candStore_apply x W b p q e

/-- The source's store: node row 0. -/
theorem pay_src (x : Vec Ideal S4x1027x257 .f32) (W : Vec Ideal S256x257 .f32) (b : Vec Ideal S256 .f32)
    (p : Fin 4) (e : Fin 256) :
    k0_pay5 (F := Ideal) x W b (ix3 p (0 : Fin 1) e)
      = (∑ d : Fin 257, x (ix3 p (⟨0, by omega⟩ : Fin 1027) d) * W (ix2 e d)) + b (ix1 e) :=
  rowStore_apply x W b 0 (by omega) _ p e

/-- The destination's store: node row 1025. -/
theorem pay_dst (x : Vec Ideal S4x1027x257 .f32) (W : Vec Ideal S256x257 .f32) (b : Vec Ideal S256 .f32)
    (p : Fin 4) (e : Fin 256) :
    k0_pay1 (F := Ideal) (k0_pay6 (F := Ideal) b) (k0_pay7 (F := Ideal) x W) (ix3 p (0 : Fin 1) e)
      = (∑ d : Fin 257, x (ix3 p (⟨1025, by omega⟩ : Fin 1027) d) * W (ix2 e d)) + b (ix1 e) :=
  rowStore_apply x W b 1025 (by omega) _ p e

/-- The depot's store: node row 1026. -/
theorem pay_dep (x : Vec Ideal S4x1027x257 .f32) (W : Vec Ideal S256x257 .f32) (b : Vec Ideal S256 .f32)
    (p : Fin 4) (e : Fin 256) :
    k0_pay2 (F := Ideal) (k0_pay3 (F := Ideal) x) W b (ix3 p (0 : Fin 1) e)
      = (∑ d : Fin 257, x (ix3 p (⟨1026, by omega⟩ : Fin 1027) d) * W (ix2 e d)) + b (ix1 e) :=
  rowStore_apply x W b 1026 (by omega) _ p e

end Cert.Payload

end
-- ==== Proof.KernelValue.lean ====
/-
  From blocks to arrays.

  Grid point `t` of 32 holds batch entries `4t … 4t + 3`: it stages their node rows whole, stages each weight
  and bias whole (the same at every point), and writes back four entries of each of the four results. The 32
  blocks of a result tile it along the batch axis, so each result array ends as ONE function of the arrays the
  launch was handed: at every index, one node row against one weight row plus one bias entry.
-/
import proofs.«413976_j6330781794648_3_alg».proof.Proof.Gen.KernelIdeal.Value
import proofs.«413976_j6330781794648_3_alg».proof.Proof.Payload
import proofs.«413976_j6330781794648_3_alg».proof.Proof.Embed

set_option maxRecDepth 16384

noncomputable section

namespace Cert.KernelValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Embed

variable (m : (ℓ : Loc nD τ sig) → Buf (Elt Ideal) ℓ) (ρ : Dev nD → PrngReg)

open scoped BigOperators

/-! ## Zero offsets, however many axes -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-! ## Where each window's block sits, point by point

The node rows' block and the four results' blocks move along the batch axis with the point; every weight and bias
block stays at the origin. -/

/-- The node rows: block `(t, 0, 0)`. -/
theorem at_nodes : ∀ t : Fin cfg0.N, win0_0.index t (0 : Fin 3) = t.val ∧ win0_0.index t (1 : Fin 3) = 0
    ∧ win0_0.index t (2 : Fin 3) = 0 :=
  (by decide +kernel : ∀ t : Fin grid0.N, _)

/-- The four weights: block `(0, 0)`. -/
theorem at_weights : ∀ t : Fin cfg0.N, win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0 :=
  (by decide +kernel : ∀ t : Fin grid0.N, _)

/-- The four biases: block `0`. -/
theorem at_biases : ∀ t : Fin cfg0.N, win0_2.index t (0 : Fin 1) = 0 ∧ win0_4.index t (0 : Fin 1) = 0
    ∧ win0_6.index t (0 : Fin 1) = 0 ∧ win0_8.index t (0 : Fin 1) = 0 :=
  (by decide +kernel : ∀ t : Fin grid0.N, _)

/-- The candidates' result: block `(t, 0, 0)`. -/
theorem at_cand : ∀ t : Fin cfg0.N, win0_9.index t (0 : Fin 3) = t.val ∧ win0_9.index t (1 : Fin 3) = 0
    ∧ win0_9.index t (2 : Fin 3) = 0 :=
  (by decide +kernel : ∀ t : Fin grid0.N, _)

/-- The source's result: block `(t, 0, 0)`. -/
theorem at_src : ∀ t : Fin cfg0.N, win0_10.index t (0 : Fin 3) = t.val ∧ win0_10.index t (1 : Fin 3) = 0
    ∧ win0_10.index t (2 : Fin 3) = 0 :=
  (by decide +kernel : ∀ t : Fin grid0.N, _)

/-- The destination's result: block `(t, 0, 0)`. -/
theorem at_dst : ∀ t : Fin cfg0.N, win0_11.index t (0 : Fin 3) = t.val ∧ win0_11.index t (1 : Fin 3) = 0
    ∧ win0_11.index t (2 : Fin 3) = 0 :=
  (by decide +kernel : ∀ t : Fin grid0.N, _)

/-- The depot's result: block `(t, 0, 0)`. -/
theorem at_dep : ∀ t : Fin cfg0.N, win0_12.index t (0 : Fin 3) = t.val ∧ win0_12.index t (1 : Fin 3) = 0
    ∧ win0_12.index t (2 : Fin 3) = 0 :=
  (by decide +kernel : ∀ t : Fin grid0.N, _)

/-! ## One stored element against the whole arrays

Everything here is about plain vectors: a block `x` of four batch entries, the whole node array `X`, a weight and a
bias. No program, no grid point. -/

/-- `x` is batch entries `4s … 4s + 3` of `X`: the element of `x` at batch position `p` is the element of `X` at
    batch entry `4s + p`, at the same node and feature. -/
def IsEntries (s : Nat) (x : Vec Ideal S4x1027x257 .f32) (X : FVec Ideal SX .f32) : Prop :=
  ∀ (y : S4x1027x257.Idx) (k : SX.Idx), (k 0).val = 4 * s + (y 0).val → (k 1).val = (y 1).val →
    (k 2).val = (y 2).val → x y = X k

/-- A node row of the block against a weight row, plus the bias, is the same row of the whole array against it. -/
theorem row_of_entries {s : Nat} {x : Vec Ideal S4x1027x257 .f32} {X : FVec Ideal SX .f32} (hx : IsEntries s x X)
    (W : FVec Ideal SW .f32) (b : FVec Ideal SB .f32) (p : Fin 4) (n : Fin 1027) (e : Fin 256) (P : Fin 128)
    (hP : P.val = 4 * s + p.val) :
    (∑ d : Fin 257, x (ix3 p n d) * W (ix2 e d)) + b (ix1 e) = affine X W b P n e := by
  unfold affine
  congr 1
  refine Finset.sum_congr rfl fun d _ => ?_
  rw [hx (ix3 p n d) (ix3 P n d) hP rfl rfl]

/-- The source's stored element is the source row's embedding. -/
theorem src_elt {s : Nat} {x : Vec Ideal S4x1027x257 .f32} {X : FVec Ideal SX .f32} (hx : IsEntries s x X)
    (W : FVec Ideal SW .f32) (b : FVec Ideal SB .f32) (j : S4x1x256.Idx) (i : SRow.Idx)
    (h0 : (i 0).val = 4 * s + (j 0).val) (h2 : (i 2).val = (j 2).val) :
    k0_pay5 (F := Ideal) x W b j = rowArr (affine X W b) nodeSrc i := by
  obtain ⟨p, q, e, rfl⟩ : ∃ (p : Fin 4) (q : Fin 1) (e : Fin 256), j = ix3 p q e := ⟨j 0, j 1, j 2, eq_ix3 j⟩
  obtain rfl : q = 0 := Subsingleton.elim _ _
  refine (Cert.Payload.pay_src x W b p e).trans ?_
  refine (row_of_entries hx W b p _ e (i 0) h0).trans ?_
  show affine X W b (i 0) nodeSrc e = affine X W b (i 0) nodeSrc (i 2)
  congr 1
  exact Fin.ext h2.symm

/-! ## The staged blocks at a point -/

/-- The node rows staged at point `t` are batch entries `4t … 4t + 3` of the node array. -/
theorem nodes_at (c : Dev nD) (t : Fin cfg0.N) : IsEntries t.val (iblk m c 0 t) (V m c main_arg0) := by
  intro y k h0 h1 h2
  obtain ⟨e0, e1, e2⟩ := at_nodes t
  unfold iblk
  rw [View.read_apply]
  show V m c main_arg0 _ = V m c main_arg0 k
  congr 1
  funext a; apply Fin.ext
  match a with
  | ⟨0, _⟩ => show win0_0.index t (0 : Fin 3) * 4 + 1 * (y 0).val = (k 0).val; rw [e0, h0]; omega
  | ⟨1, _⟩ => show win0_0.index t (1 : Fin 3) * 1027 + 1 * (y 1).val = (k 1).val; rw [e1, h1]; omega
  | ⟨2, _⟩ => show win0_0.index t (2 : Fin 3) * 257 + 1 * (y 2).val = (k 2).val; rw [e2, h2]; omega

/-- The source's weight is staged whole. -/
theorem weight_src_at (c : Dev nD) (t : Fin cfg0.N) : iblk m c 3 t = V m c main_v13 := by
  obtain ⟨-, -, e0, e1, -⟩ := at_weights t
  unfold iblk
  funext y
  rw [View.read_apply]
  show V m c main_v13 _ = V m c main_v13 y
  congr 1
  funext a; apply Fin.ext
  match a with
  | ⟨0, _⟩ => show win0_3.index t (0 : Fin 2) * 256 + 1 * (y 0).val = (y 0).val; rw [e0]; omega
  | ⟨1, _⟩ => show win0_3.index t (1 : Fin 2) * 257 + 1 * (y 1).val = (y 1).val; rw [e1]; omega

/-- The source's bias is staged whole. -/
theorem bias_src_at (c : Dev nD) (t : Fin cfg0.N) : iblk m c 4 t = V m c main_v18 := by
  obtain ⟨-, e0, -⟩ := at_biases t
  unfold iblk
  funext y
  rw [View.read_apply]
  show V m c main_v18 _ = V m c main_v18 y
  congr 1
  funext a; apply Fin.ext
  match a with
  | ⟨0, _⟩ => show win0_4.index t (0 : Fin 1) * 256 + 1 * (y 0).val = (y 0).val; rw [e0]; omega

/-! ## The source's result -/

/-- What point `t` writes back is block `t` of the source rows' embeddings. -/
theorem flushed_src (c : Dev nD) (t : Fin cfg0.N) :
    (dats m 0 c).flushed 10 t = ((cfg0.win 10).blk t).view.read (Elt Ideal)
      (rowArr (affine (V m c main_arg0) (V m c main_v13) (V m c main_v18)) nodeSrc) := by
  rw [flushed10]
  unfold out0_10
  rw [View.canon_unit_zero zeros3]
  simp only [View.ld_unit_zero (S := S4x1027x257) zeros3, View.ld_unit_zero (S := S256x257) zeros2,
    View.ld_unit_zero (S := S256) zeros1]
  rw [weight_src_at m c t, bias_src_at m c t]
  obtain ⟨e0, e1, e2⟩ := at_src t
  funext j
  show k0_pay5 (F := Ideal) (iblk m c 0 t) (V m c main_v13) (V m c main_v18) j
    = rowArr (affine (V m c main_arg0) (V m c main_v13) (V m c main_v18)) nodeSrc (((cfg0.win 10).blk t).view.emb j)
  refine src_elt (nodes_at m c t) _ _ j _ ?_ ?_
  · show win0_10.index t (0 : Fin 3) * 4 + 1 * (j 0).val = 4 * t.val + (j 0).val
    rw [e0]; omega
  · show win0_10.index t (2 : Fin 3) * 256 + 1 * (j 2).val = (j 2).val
    rw [e2]; omega

/-- An index of the source's result is in point `t`'s block iff each coordinate is in the block's range. -/
theorem mem_src (t : Fin cfg0.N) (i : S128x1x256.Idx) :
    i ∈ ((cfg0.win 10).blk t).view.set ↔ ∀ a : Fin 3, win0_10.index t a * S4x1x256.size a ≤ (i a).val
      ∧ (i a).val < win0_10.index t a * S4x1x256.size a + S4x1x256.size a := by
  show i ∈ ((View.whole main_v61_1).slice (win0_10.rect t)).set ↔ _
  rw [View.set_slice_whole, Rect.mem_set_unit]
  exact Iff.rfl

/-- Batch entry `i 0` is written back by point `(i 0) / 4`. -/
theorem cover_src (i : S128x1x256.Idx) :
    ∃ t : Fin cfg0.N, (cfg0.win 10).flush t = true ∧ i ∈ ((cfg0.win 10).blk t).view.set := by
  have h0 : (i 0).val < 128 := (i 0).isLt
  have h1 : (i 1).val < 1 := (i 1).isLt
  have h2 : (i 2).val < 256 := (i 2).isLt
  have hN : (i 0).val / 4 < cfg0.N := by show (i 0).val / 4 < grid0.N; rw [N_0]; omega
  obtain ⟨e0, e1, e2⟩ := at_src ⟨(i 0).val / 4, hN⟩
  refine ⟨⟨(i 0).val / 4, hN⟩, flush0_10 _, ?_⟩
  rw [mem_src]
  intro a
  match a with
  | ⟨0, _⟩ =>
    show win0_10.index ⟨(i 0).val / 4, hN⟩ (0 : Fin 3) * 4 ≤ (i 0).val
      ∧ (i 0).val < win0_10.index ⟨(i 0).val / 4, hN⟩ (0 : Fin 3) * 4 + 4
    rw [e0]; show (i 0).val / 4 * 4 ≤ (i 0).val ∧ (i 0).val < (i 0).val / 4 * 4 + 4; omega
  | ⟨1, _⟩ =>
    show win0_10.index ⟨(i 0).val / 4, hN⟩ (1 : Fin 3) * 1 ≤ (i 1).val
      ∧ (i 1).val < win0_10.index ⟨(i 0).val / 4, hN⟩ (1 : Fin 3) * 1 + 1
    rw [e1]; omega
  | ⟨2, _⟩ =>
    show win0_10.index ⟨(i 0).val / 4, hN⟩ (2 : Fin 3) * 256 ≤ (i 2).val
      ∧ (i 2).val < win0_10.index ⟨(i 0).val / 4, hN⟩ (2 : Fin 3) * 256 + 256
    rw [e2]; omega

/-! ## The destination's result -/

/-- The destination's stored element is the destination row's embedding. -/
theorem dst_elt {s : Nat} {x : Vec Ideal S4x1027x257 .f32} {X : FVec Ideal SX .f32} (hx : IsEntries s x X)
    (W : FVec Ideal SW .f32) (b : FVec Ideal SB .f32) (j : S4x1x256.Idx) (i : SRow.Idx)
    (h0 : (i 0).val = 4 * s + (j 0).val) (h2 : (i 2).val = (j 2).val) :
    k0_pay1 (F := Ideal) (k0_pay6 (F := Ideal) b) (k0_pay7 (F := Ideal) x W) j = rowArr (affine X W b) nodeDst i := by
  obtain ⟨p, q, e, rfl⟩ : ∃ (p : Fin 4) (q : Fin 1) (e : Fin 256), j = ix3 p q e := ⟨j 0, j 1, j 2, eq_ix3 j⟩
  obtain rfl : q = 0 := Subsingleton.elim _ _
  refine (Cert.Payload.pay_dst x W b p e).trans ?_
  refine (row_of_entries hx W b p _ e (i 0) h0).trans ?_
  show affine X W b (i 0) nodeDst e = affine X W b (i 0) nodeDst (i 2)
  congr 1
  exact Fin.ext h2.symm

/-- The destination's weight is staged whole. -/
theorem weight_dst_at (c : Dev nD) (t : Fin cfg0.N) : iblk m c 5 t = V m c main_v27 := by
  obtain ⟨-, -, -, -, e0, e1, -⟩ := at_weights t
  unfold iblk
  funext y
  rw [View.read_apply]
  show V m c main_v27 _ = V m c main_v27 y
  congr 1
  funext a; apply Fin.ext
  match a with
  | ⟨0, _⟩ => show win0_5.index t (0 : Fin 2) * 256 + 1 * (y 0).val = (y 0).val; rw [e0]; omega
  | ⟨1, _⟩ => show win0_5.index t (1 : Fin 2) * 257 + 1 * (y 1).val = (y 1).val; rw [e1]; omega

/-- The destination's bias is staged whole. -/
theorem bias_dst_at (c : Dev nD) (t : Fin cfg0.N) : iblk m c 6 t = V m c main_v32 := by
  obtain ⟨-, -, e0, -⟩ := at_biases t
  unfold iblk
  funext y
  rw [View.read_apply]
  show V m c main_v32 _ = V m c main_v32 y
  congr 1
  funext a; apply Fin.ext
  match a with
  | ⟨0, _⟩ => show win0_6.index t (0 : Fin 1) * 256 + 1 * (y 0).val = (y 0).val; rw [e0]; omega

/-- What point `t` writes back is block `t` of the destination rows' embeddings. -/
theorem flushed_dst (c : Dev nD) (t : Fin cfg0.N) :
    (dats m 0 c).flushed 11 t = ((cfg0.win 11).blk t).view.read (Elt Ideal)
      (rowArr (affine (V m c main_arg0) (V m c main_v27) (V m c main_v32)) nodeDst) := by
  rw [flushed11]
  unfold out0_11
  rw [View.canon_unit_zero zeros3]
  simp only [View.ld_unit_zero (S := S4x1027x257) zeros3, View.ld_unit_zero (S := S256x257) zeros2,
    View.ld_unit_zero (S := S256) zeros1]
  rw [weight_dst_at m c t, bias_dst_at m c t]
  obtain ⟨e0, e1, e2⟩ := at_dst t
  funext j
  show k0_pay1 (F := Ideal) (k0_pay6 (F := Ideal) (V m c main_v32)) (k0_pay7 (F := Ideal) (iblk m c 0 t) (V m c main_v27)) j
    = rowArr (affine (V m c main_arg0) (V m c main_v27) (V m c main_v32)) nodeDst (((cfg0.win 11).blk t).view.emb j)
  refine dst_elt (nodes_at m c t) _ _ j _ ?_ ?_
  · show win0_11.index t (0 : Fin 3) * 4 + 1 * (j 0).val = 4 * t.val + (j 0).val
    rw [e0]; omega
  · show win0_11.index t (2 : Fin 3) * 256 + 1 * (j 2).val = (j 2).val
    rw [e2]; omega

/-- An index of the destination's result is in point `t`'s block iff each coordinate is in the block's range. -/
theorem mem_dst (t : Fin cfg0.N) (i : S128x1x256.Idx) :
    i ∈ ((cfg0.win 11).blk t).view.set ↔ ∀ a : Fin 3, win0_11.index t a * S4x1x256.size a ≤ (i a).val
      ∧ (i a).val < win0_11.index t a * S4x1x256.size a + S4x1x256.size a := by
  show i ∈ ((View.whole main_v61_2).slice (win0_11.rect t)).set ↔ _
  rw [View.set_slice_whole, Rect.mem_set_unit]
  exact Iff.rfl

/-- Batch entry `i 0` is written back by point `(i 0) / 4`. -/
theorem cover_dst (i : S128x1x256.Idx) :
    ∃ t : Fin cfg0.N, (cfg0.win 11).flush t = true ∧ i ∈ ((cfg0.win 11).blk t).view.set := by
  have h0 : (i 0).val < 128 := (i 0).isLt
  have h1 : (i 1).val < 1 := (i 1).isLt
  have h2 : (i 2).val < 256 := (i 2).isLt
  have hN : (i 0).val / 4 < cfg0.N := by show (i 0).val / 4 < grid0.N; rw [N_0]; omega
  obtain ⟨e0, e1, e2⟩ := at_dst ⟨(i 0).val / 4, hN⟩
  refine ⟨⟨(i 0).val / 4, hN⟩, flush0_11 _, ?_⟩
  rw [mem_dst]
  intro a
  match a with
  | ⟨0, _⟩ =>
    show win0_11.index ⟨(i 0).val / 4, hN⟩ (0 : Fin 3) * 4 ≤ (i 0).val
      ∧ (i 0).val < win0_11.index ⟨(i 0).val / 4, hN⟩ (0 : Fin 3) * 4 + 4
    rw [e0]; show (i 0).val / 4 * 4 ≤ (i 0).val ∧ (i 0).val < (i 0).val / 4 * 4 + 4; omega
  | ⟨1, _⟩ =>
    show win0_11.index ⟨(i 0).val / 4, hN⟩ (1 : Fin 3) * 1 ≤ (i 1).val
      ∧ (i 1).val < win0_11.index ⟨(i 0).val / 4, hN⟩ (1 : Fin 3) * 1 + 1
    rw [e1]; omega
  | ⟨2, _⟩ =>
    show win0_11.index ⟨(i 0).val / 4, hN⟩ (2 : Fin 3) * 256 ≤ (i 2).val
      ∧ (i 2).val < win0_11.index ⟨(i 0).val / 4, hN⟩ (2 : Fin 3) * 256 + 256
    rw [e2]; omega

/-! ## The depot's result -/

/-- The depot's stored element is the depot row's embedding. -/
theorem dep_elt {s : Nat} {x : Vec Ideal S4x1027x257 .f32} {X : FVec Ideal SX .f32} (hx : IsEntries s x X)
    (W : FVec Ideal SW .f32) (b : FVec Ideal SB .f32) (j : S4x1x256.Idx) (i : SRow.Idx)
    (h0 : (i 0).val = 4 * s + (j 0).val) (h2 : (i 2).val = (j 2).val) :
    k0_pay2 (F := Ideal) (k0_pay3 (F := Ideal) x) W b j = rowArr (affine X W b) nodeDep i := by
  obtain ⟨p, q, e, rfl⟩ : ∃ (p : Fin 4) (q : Fin 1) (e : Fin 256), j = ix3 p q e := ⟨j 0, j 1, j 2, eq_ix3 j⟩
  obtain rfl : q = 0 := Subsingleton.elim _ _
  refine (Cert.Payload.pay_dep x W b p e).trans ?_
  refine (row_of_entries hx W b p _ e (i 0) h0).trans ?_
  show affine X W b (i 0) nodeDep e = affine X W b (i 0) nodeDep (i 2)
  congr 1
  exact Fin.ext h2.symm

/-- The depot's weight is staged whole. -/
theorem weight_dep_at (c : Dev nD) (t : Fin cfg0.N) : iblk m c 7 t = V m c main_v41 := by
  obtain ⟨-, -, -, -, -, -, e0, e1⟩ := at_weights t
  unfold iblk
  funext y
  rw [View.read_apply]
  show V m c main_v41 _ = V m c main_v41 y
  congr 1
  funext a; apply Fin.ext
  match a with
  | ⟨0, _⟩ => show win0_7.index t (0 : Fin 2) * 256 + 1 * (y 0).val = (y 0).val; rw [e0]; omega
  | ⟨1, _⟩ => show win0_7.index t (1 : Fin 2) * 257 + 1 * (y 1).val = (y 1).val; rw [e1]; omega

/-- The depot's bias is staged whole. -/
theorem bias_dep_at (c : Dev nD) (t : Fin cfg0.N) : iblk m c 8 t = V m c main_v46 := by
  obtain ⟨-, -, -, e0⟩ := at_biases t
  unfold iblk
  funext y
  rw [View.read_apply]
  show V m c main_v46 _ = V m c main_v46 y
  congr 1
  funext a; apply Fin.ext
  match a with
  | ⟨0, _⟩ => show win0_8.index t (0 : Fin 1) * 256 + 1 * (y 0).val = (y 0).val; rw [e0]; omega

/-- What point `t` writes back is block `t` of the depot rows' embeddings. -/
theorem flushed_dep (c : Dev nD) (t : Fin cfg0.N) :
    (dats m 0 c).flushed 12 t = ((cfg0.win 12).blk t).view.read (Elt Ideal)
      (rowArr (affine (V m c main_arg0) (V m c main_v41) (V m c main_v46)) nodeDep) := by
  rw [flushed12]
  unfold out0_12
  rw [View.canon_unit_zero zeros3]
  simp only [View.ld_unit_zero (S := S4x1027x257) zeros3, View.ld_unit_zero (S := S256x257) zeros2,
    View.ld_unit_zero (S := S256) zeros1]
  rw [weight_dep_at m c t, bias_dep_at m c t]
  obtain ⟨e0, e1, e2⟩ := at_dep t
  funext j
  show k0_pay2 (F := Ideal) (k0_pay3 (F := Ideal) (iblk m c 0 t)) (V m c main_v41) (V m c main_v46) j
    = rowArr (affine (V m c main_arg0) (V m c main_v41) (V m c main_v46)) nodeDep (((cfg0.win 12).blk t).view.emb j)
  refine dep_elt (nodes_at m c t) _ _ j _ ?_ ?_
  · show win0_12.index t (0 : Fin 3) * 4 + 1 * (j 0).val = 4 * t.val + (j 0).val
    rw [e0]; omega
  · show win0_12.index t (2 : Fin 3) * 256 + 1 * (j 2).val = (j 2).val
    rw [e2]; omega

/-- An index of the depot's result is in point `t`'s block iff each coordinate is in the block's range. -/
theorem mem_dep (t : Fin cfg0.N) (i : S128x1x256.Idx) :
    i ∈ ((cfg0.win 12).blk t).view.set ↔ ∀ a : Fin 3, win0_12.index t a * S4x1x256.size a ≤ (i a).val
      ∧ (i a).val < win0_12.index t a * S4x1x256.size a + S4x1x256.size a := by
  show i ∈ ((View.whole main_v61_3).slice (win0_12.rect t)).set ↔ _
  rw [View.set_slice_whole, Rect.mem_set_unit]
  exact Iff.rfl

/-- Batch entry `i 0` is written back by point `(i 0) / 4`. -/
theorem cover_dep (i : S128x1x256.Idx) :
    ∃ t : Fin cfg0.N, (cfg0.win 12).flush t = true ∧ i ∈ ((cfg0.win 12).blk t).view.set := by
  have h0 : (i 0).val < 128 := (i 0).isLt
  have h1 : (i 1).val < 1 := (i 1).isLt
  have h2 : (i 2).val < 256 := (i 2).isLt
  have hN : (i 0).val / 4 < cfg0.N := by show (i 0).val / 4 < grid0.N; rw [N_0]; omega
  obtain ⟨e0, e1, e2⟩ := at_dep ⟨(i 0).val / 4, hN⟩
  refine ⟨⟨(i 0).val / 4, hN⟩, flush0_12 _, ?_⟩
  rw [mem_dep]
  intro a
  match a with
  | ⟨0, _⟩ =>
    show win0_12.index ⟨(i 0).val / 4, hN⟩ (0 : Fin 3) * 4 ≤ (i 0).val
      ∧ (i 0).val < win0_12.index ⟨(i 0).val / 4, hN⟩ (0 : Fin 3) * 4 + 4
    rw [e0]; show (i 0).val / 4 * 4 ≤ (i 0).val ∧ (i 0).val < (i 0).val / 4 * 4 + 4; omega
  | ⟨1, _⟩ =>
    show win0_12.index ⟨(i 0).val / 4, hN⟩ (1 : Fin 3) * 1 ≤ (i 1).val
      ∧ (i 1).val < win0_12.index ⟨(i 0).val / 4, hN⟩ (1 : Fin 3) * 1 + 1
    rw [e1]; omega
  | ⟨2, _⟩ =>
    show win0_12.index ⟨(i 0).val / 4, hN⟩ (2 : Fin 3) * 256 ≤ (i 2).val
      ∧ (i 2).val < win0_12.index ⟨(i 0).val / 4, hN⟩ (2 : Fin 3) * 256 + 256
    rw [e2]; omega

/-! ## The candidates' result -/

/-- The candidates' stored element `q` is node row `q + 1`'s embedding. -/
theorem cand_elt {s : Nat} {x : Vec Ideal S4x1027x257 .f32} {X : FVec Ideal SX .f32} (hx : IsEntries s x X)
    (W : FVec Ideal SW .f32) (b : FVec Ideal SB .f32) (j : S4x1024x256.Idx) (i : SCand.Idx)
    (h0 : (i 0).val = 4 * s + (j 0).val) (h1 : (i 1).val = (j 1).val) (h2 : (i 2).val = (j 2).val) :
    k0_pay4 (F := Ideal) x W b j = candArr (affine X W b) i := by
  obtain ⟨p, q, e, rfl⟩ : ∃ (p : Fin 4) (q : Fin 1024) (e : Fin 256), j = ix3 p q e := ⟨j 0, j 1, j 2, eq_ix3 j⟩
  refine (Cert.Payload.pay_cand x W b p q e).trans ?_
  refine (row_of_entries hx W b p _ e (i 0) h0).trans ?_
  show affine X W b (i 0) ⟨q.val + 1, _⟩ e = affine X W b (i 0) ⟨(i 1).val + 1, _⟩ (i 2)
  congr 1
  · exact Fin.ext (by show q.val + 1 = (i 1).val + 1; rw [h1])
  · exact Fin.ext h2.symm

/-- The candidates' weight is staged whole. -/
theorem weight_cand_at (c : Dev nD) (t : Fin cfg0.N) : iblk m c 1 t = V m c main_v55 := by
  obtain ⟨e0, e1, -⟩ := at_weights t
  unfold iblk
  funext y
  rw [View.read_apply]
  show V m c main_v55 _ = V m c main_v55 y
  congr 1
  funext a; apply Fin.ext
  match a with
  | ⟨0, _⟩ => show win0_1.index t (0 : Fin 2) * 256 + 1 * (y 0).val = (y 0).val; rw [e0]; omega
  | ⟨1, _⟩ => show win0_1.index t (1 : Fin 2) * 257 + 1 * (y 1).val = (y 1).val; rw [e1]; omega

/-- The candidates' bias is staged whole. -/
theorem bias_cand_at (c : Dev nD) (t : Fin cfg0.N) : iblk m c 2 t = V m c main_v60 := by
  obtain ⟨e0, -⟩ := at_biases t
  unfold iblk
  funext y
  rw [View.read_apply]
  show V m c main_v60 _ = V m c main_v60 y
  congr 1
  funext a; apply Fin.ext
  match a with
  | ⟨0, _⟩ => show win0_2.index t (0 : Fin 1) * 256 + 1 * (y 0).val = (y 0).val; rw [e0]; omega

/-- What point `t` writes back is block `t` of the candidate rows' embeddings. -/
theorem flushed_cand (c : Dev nD) (t : Fin cfg0.N) :
    (dats m 0 c).flushed 9 t = ((cfg0.win 9).blk t).view.read (Elt Ideal)
      (candArr (affine (V m c main_arg0) (V m c main_v55) (V m c main_v60))) := by
  rw [flushed9]
  unfold out0_9
  rw [View.canon_unit_zero zeros3]
  simp only [View.ld_unit_zero (S := S4x1027x257) zeros3, View.ld_unit_zero (S := S256x257) zeros2,
    View.ld_unit_zero (S := S256) zeros1]
  rw [weight_cand_at m c t, bias_cand_at m c t]
  obtain ⟨e0, e1, e2⟩ := at_cand t
  funext j
  show k0_pay4 (F := Ideal) (iblk m c 0 t) (V m c main_v55) (V m c main_v60) j
    = candArr (affine (V m c main_arg0) (V m c main_v55) (V m c main_v60)) (((cfg0.win 9).blk t).view.emb j)
  refine cand_elt (nodes_at m c t) _ _ j _ ?_ ?_ ?_
  · show win0_9.index t (0 : Fin 3) * 4 + 1 * (j 0).val = 4 * t.val + (j 0).val
    rw [e0]; omega
  · show win0_9.index t (1 : Fin 3) * 1024 + 1 * (j 1).val = (j 1).val
    rw [e1]; omega
  · show win0_9.index t (2 : Fin 3) * 256 + 1 * (j 2).val = (j 2).val
    rw [e2]; omega

/-- An index of the candidates' result is in point `t`'s block iff each coordinate is in the block's range. -/
theorem mem_cand (t : Fin cfg0.N) (i : S128x1024x256.Idx) :
    i ∈ ((cfg0.win 9).blk t).view.set ↔ ∀ a : Fin 3, win0_9.index t a * S4x1024x256.size a ≤ (i a).val
      ∧ (i a).val < win0_9.index t a * S4x1024x256.size a + S4x1024x256.size a := by
  show i ∈ ((View.whole main_v61_0).slice (win0_9.rect t)).set ↔ _
  rw [View.set_slice_whole, Rect.mem_set_unit]
  exact Iff.rfl

/-- Batch entry `i 0` is written back by point `(i 0) / 4`. -/
theorem cover_cand (i : S128x1024x256.Idx) :
    ∃ t : Fin cfg0.N, (cfg0.win 9).flush t = true ∧ i ∈ ((cfg0.win 9).blk t).view.set := by
  have h0 : (i 0).val < 128 := (i 0).isLt
  have h1 : (i 1).val < 1024 := (i 1).isLt
  have h2 : (i 2).val < 256 := (i 2).isLt
  have hN : (i 0).val / 4 < cfg0.N := by show (i 0).val / 4 < grid0.N; rw [N_0]; omega
  obtain ⟨e0, e1, e2⟩ := at_cand ⟨(i 0).val / 4, hN⟩
  refine ⟨⟨(i 0).val / 4, hN⟩, flush0_9 _, ?_⟩
  rw [mem_cand]
  intro a
  match a with
  | ⟨0, _⟩ =>
    show win0_9.index ⟨(i 0).val / 4, hN⟩ (0 : Fin 3) * 4 ≤ (i 0).val
      ∧ (i 0).val < win0_9.index ⟨(i 0).val / 4, hN⟩ (0 : Fin 3) * 4 + 4
    rw [e0]; show (i 0).val / 4 * 4 ≤ (i 0).val ∧ (i 0).val < (i 0).val / 4 * 4 + 4; omega
  | ⟨1, _⟩ =>
    show win0_9.index ⟨(i 0).val / 4, hN⟩ (1 : Fin 3) * 1024 ≤ (i 1).val
      ∧ (i 1).val < win0_9.index ⟨(i 0).val / 4, hN⟩ (1 : Fin 3) * 1024 + 1024
    rw [e1]; omega
  | ⟨2, _⟩ =>
    show win0_9.index ⟨(i 0).val / 4, hN⟩ (2 : Fin 3) * 256 ≤ (i 2).val
      ∧ (i 2).val < win0_9.index ⟨(i 0).val / 4, hN⟩ (2 : Fin 3) * 256 + 256
    rw [e2]; omega

/-! ## The four results after the run -/

/-- The candidates' result after the run. -/
theorem final_cand (c : Dev nD) : (dats m 0 c).arrAt 9 cfg0.N
    = candArr (affine (V m c main_arg0) (V m c main_v55) (V m c main_v60)) :=
  (dats m 0 c).arrAt_eq_of_cover 9 _ (fun t _ => flushed_cand m c t) cover_cand

/-- The source's result after the run. -/
theorem final_src (c : Dev nD) : (dats m 0 c).arrAt 10 cfg0.N
    = rowArr (affine (V m c main_arg0) (V m c main_v13) (V m c main_v18)) nodeSrc :=
  (dats m 0 c).arrAt_eq_of_cover 10 _ (fun t _ => flushed_src m c t) cover_src

/-- The destination's result after the run. -/
theorem final_dst (c : Dev nD) : (dats m 0 c).arrAt 11 cfg0.N
    = rowArr (affine (V m c main_arg0) (V m c main_v27) (V m c main_v32)) nodeDst :=
  (dats m 0 c).arrAt_eq_of_cover 11 _ (fun t _ => flushed_dst m c t) cover_dst

/-- The depot's result after the run. -/
theorem final_dep (c : Dev nD) : (dats m 0 c).arrAt 12 cfg0.N
    = rowArr (affine (V m c main_arg0) (V m c main_v41) (V m c main_v46)) nodeDep :=
  (dats m 0 c).arrAt_eq_of_cover 12 _ (fun t _ => flushed_dep m c t) cover_dep

end Cert.KernelValue

end
-- ==== Proof.HostWeights.lean ====
/-
  The arrays the launch is handed.

  Before the launch the program computes, from the gate `a = 1 / (1 + exp (-w))`, four gate-mixed weight
  matrices and four gate-mixed biases, one pair for the candidates, the source, the destination and the depot:
  `((1 - a)·W + a·W_reg) + (a·c)·W_rand` and `(1 - a)·b + a·b_reg`, entry by entry. These are the arrays the
  kernel's weight and bias windows stage.
-/
import proofs.«413976_j6330781794648_3_alg».proof.Proof.Gen.KernelIdeal.Frame
import proofs.«413976_j6330781794648_3_alg».proof.Proof.Embed
import Idealize.ShloMosaic.Lib.StableHlo.Run
import Idealize.ShloMosaic.Lib.ValueIdx
import Idealize.ShloMosaic.Lib.Pipeline.Value

noncomputable section

namespace Cert.HostWeights

open Cert.KernelIdeal Cert.KernelIdeal.Gen Idealize.ShloMosaic Idealize.ShloMosaic.TcCoe Idealize.SL.Sem
open Idealize.ShloMosaic.ValueIdx Cert.Embed

/-! ## The host's arithmetic, as array terms

The program forms the gate as a rank-0 array, `1 / (1 + exp (-w))`, then spreads `1 - a`, `a` and `a·c` over the
matrix's (the vector's) shape and multiplies and adds entry by entry. The terms below are those operations in the
program's order; read at an index they are the effective weight and bias of the mathematics. -/

/-- The gate as a rank-0 array: `1 / (1 + exp (-w))`. -/
def gateArr (w : FVec Ideal S_ .f32) : FVec Ideal S_ .f32 :=
  Host.divf (F := Ideal) (constant (F := Ideal) S_ .f32 0x3F800000#32)
    (addf (constant (F := Ideal) S_ .f32 0x3F800000#32) (Host.exp (F := Ideal) (Host.negf (F := Ideal) w)))

/-- One minus the gate, as a rank-0 array. -/
def coGateArr (w : FVec Ideal S_ .f32) : FVec Ideal S_ .f32 :=
  subf (constant (F := Ideal) S_ .f32 0x3F800000#32) (gateArr w)

/-- The gate times the word nearest one tenth, as a rank-0 array. -/
def gateTenthArr (w : FVec Ideal S_ .f32) : FVec Ideal S_ .f32 :=
  mulf (gateArr w) (constant (F := Ideal) S_ .f32 0x3DCCCCCD#32)

/-- A gate-mixed weight matrix in the program's order of operations. -/
def hostW (h : S_.BroadcastsInDim S256x257 (![] : Fin 0 → Fin S256x257.rank))
    (w : FVec Ideal S_ .f32) (W Wg Wn : FVec Ideal S256x257 .f32) : FVec Ideal S256x257 .f32 :=
  addf (addf (mulf (broadcastInDim S256x257 ![] h (coGateArr w)) W) (mulf (broadcastInDim S256x257 ![] h (gateArr w)) Wg))
    (mulf (broadcastInDim S256x257 ![] h (gateTenthArr w)) Wn)

/-- A gate-mixed bias in the program's order of operations. -/
def hostB (h : S_.BroadcastsInDim S256 (![] : Fin 0 → Fin S256.rank))
    (w : FVec Ideal S_ .f32) (b bg : FVec Ideal S256 .f32) : FVec Ideal S256 .f32 :=
  addf (mulf (broadcastInDim S256 ![] h (coGateArr w)) b) (mulf (broadcastInDim S256 ![] h (gateArr w)) bg)

/-- A scalar spread over any shape reads, at every index, the scalar. -/
theorem spread_apply {t : Shape} (h : S_.BroadcastsInDim t (![] : Fin 0 → Fin t.rank)) (x : FVec Ideal S_ .f32) (j : t.Idx) :
    broadcastInDim t ![] h x j = x ix0 :=
  broadcastInDim_apply _ h x j ix0 (fun a => a.elim0)

/-- The gate array's one entry is the gate of the weight's one entry: the host's quotient, exponential and negation
    are the extended reals' own. -/
theorem gateArr_ix0 (w : FVec Ideal S_ .f32) : gateArr w ix0 = gate (w ix0) := rfl

/-- Its complement's one entry. -/
theorem coGateArr_ix0 (w : FVec Ideal S_ .f32) : coGateArr w ix0 = one - gate (w ix0) := rfl

/-- Its tenth's one entry. -/
theorem gateTenthArr_ix0 (w : FVec Ideal S_ .f32) : gateTenthArr w ix0 = gate (w ix0) * tenth := rfl

/-- The program's weight term is the effective weight, entry by entry. -/
theorem hostW_eq (h : S_.BroadcastsInDim S256x257 (![] : Fin 0 → Fin S256x257.rank))
    (w : FVec Ideal S_ .f32) (W Wg Wn : FVec Ideal S256x257 .f32) : hostW h w W Wg Wn = effW w W Wg Wn := by
  funext j
  unfold hostW effW
  rw [addf_apply, addf_apply, mulf_apply, mulf_apply, mulf_apply, spread_apply, spread_apply, spread_apply,
    coGateArr_ix0, gateArr_ix0, gateTenthArr_ix0]

/-- The program's bias term is the effective bias, entry by entry. -/
theorem hostB_eq (h : S_.BroadcastsInDim S256 (![] : Fin 0 → Fin S256.rank))
    (w : FVec Ideal S_ .f32) (b bg : FVec Ideal S256 .f32) : hostB h w b bg = effB w b bg := by
  funext j
  unfold hostB effB
  rw [addf_apply, mulf_apply, mulf_apply, spread_apply, spread_apply, coGateArr_ix0, gateArr_ix0]

/-! ## The eight arrays as the region finds them

Each is one buffer's contents after the host's line of operations: the fold is read off at that buffer, which leaves
the term above over the launch memory, and the term is the effective array. -/

variable (m : (ℓ : Loc nD τ sig) → Buf (Elt Ideal) ℓ)

set_option maxHeartbeats 1600000 in
/-- The candidates' weight as launched. -/
theorem V_W_cand (c : Dev nD) : (V m c main_v55 : FVec Ideal S256x257 .f32)
    = effW (m ((c : Thread nD τ).loc main_arg12)) (m ((c : Thread nD τ).loc main_arg7)) (m ((c : Thread nD τ).loc main_arg9)) (m ((c : Thread nD τ).loc main_arg11)) := by
  have e : (V m c main_v55 : S256x257.Idx → EReal)
      = hostW Facts₀.bcast_S_S256x257 (m ((c : Thread nD τ).loc main_arg12)) (m ((c : Thread nD τ).loc main_arg7)) (m ((c : Thread nD τ).loc main_arg9)) (m ((c : Thread nD τ).loc main_arg11)) := by
    dsimp only [Gen.V, Gen.hostOps0]; after_results_simp; rfl
  exact e.trans (hostW_eq _ _ _ _ _)

set_option maxHeartbeats 1600000 in
/-- The candidates' bias as launched. -/
theorem V_b_cand (c : Dev nD) : (V m c main_v60 : FVec Ideal S256 .f32)
    = effB (m ((c : Thread nD τ).loc main_arg12)) (m ((c : Thread nD τ).loc main_arg8)) (m ((c : Thread nD τ).loc main_arg10)) := by
  have e : (V m c main_v60 : S256.Idx → EReal)
      = hostB Facts₀.bcast_S_S256 (m ((c : Thread nD τ).loc main_arg12)) (m ((c : Thread nD τ).loc main_arg8)) (m ((c : Thread nD τ).loc main_arg10)) := by
    dsimp only [Gen.V, Gen.hostOps0]; after_results_simp; rfl
  exact e.trans (hostB_eq _ _ _ _)

set_option maxHeartbeats 1600000 in
/-- The source's weight as launched. -/
theorem V_W_src (c : Dev nD) : (V m c main_v13 : FVec Ideal S256x257 .f32)
    = effW (m ((c : Thread nD τ).loc main_arg12)) (m ((c : Thread nD τ).loc main_arg1)) (m ((c : Thread nD τ).loc main_arg9)) (m ((c : Thread nD τ).loc main_arg11)) := by
  have e : (V m c main_v13 : S256x257.Idx → EReal)
      = hostW Facts₀.bcast_S_S256x257 (m ((c : Thread nD τ).loc main_arg12)) (m ((c : Thread nD τ).loc main_arg1)) (m ((c : Thread nD τ).loc main_arg9)) (m ((c : Thread nD τ).loc main_arg11)) := by
    dsimp only [Gen.V, Gen.hostOps0]; after_results_simp; rfl
  exact e.trans (hostW_eq _ _ _ _ _)

set_option maxHeartbeats 1600000 in
/-- The source's bias as launched. -/
theorem V_b_src (c : Dev nD) : (V m c main_v18 : FVec Ideal S256 .f32)
    = effB (m ((c : Thread nD τ).loc main_arg12)) (m ((c : Thread nD τ).loc main_arg2)) (m ((c : Thread nD τ).loc main_arg10)) := by
  have e : (V m c main_v18 : S256.Idx → EReal)
      = hostB Facts₀.bcast_S_S256 (m ((c : Thread nD τ).loc main_arg12)) (m ((c : Thread nD τ).loc main_arg2)) (m ((c : Thread nD τ).loc main_arg10)) := by
    dsimp only [Gen.V, Gen.hostOps0]; after_results_simp; rfl
  exact e.trans (hostB_eq _ _ _ _)

set_option maxHeartbeats 1600000 in
/-- The destination's weight as launched. -/
theorem V_W_dst (c : Dev nD) : (V m c main_v27 : FVec Ideal S256x257 .f32)
    = effW (m ((c : Thread nD τ).loc main_arg12)) (m ((c : Thread nD τ).loc main_arg3)) (m ((c : Thread nD τ).loc main_arg9)) (m ((c : Thread nD τ).loc main_arg11)) := by
  have e : (V m c main_v27 : S256x257.Idx → EReal)
      = hostW Facts₀.bcast_S_S256x257 (m ((c : Thread nD τ).loc main_arg12)) (m ((c : Thread nD τ).loc main_arg3)) (m ((c : Thread nD τ).loc main_arg9)) (m ((c : Thread nD τ).loc main_arg11)) := by
    dsimp only [Gen.V, Gen.hostOps0]; after_results_simp; rfl
  exact e.trans (hostW_eq _ _ _ _ _)

set_option maxHeartbeats 1600000 in
/-- The destination's bias as launched. -/
theorem V_b_dst (c : Dev nD) : (V m c main_v32 : FVec Ideal S256 .f32)
    = effB (m ((c : Thread nD τ).loc main_arg12)) (m ((c : Thread nD τ).loc main_arg4)) (m ((c : Thread nD τ).loc main_arg10)) := by
  have e : (V m c main_v32 : S256.Idx → EReal)
      = hostB Facts₀.bcast_S_S256 (m ((c : Thread nD τ).loc main_arg12)) (m ((c : Thread nD τ).loc main_arg4)) (m ((c : Thread nD τ).loc main_arg10)) := by
    dsimp only [Gen.V, Gen.hostOps0]; after_results_simp; rfl
  exact e.trans (hostB_eq _ _ _ _)

set_option maxHeartbeats 1600000 in
/-- The depot's weight as launched. -/
theorem V_W_dep (c : Dev nD) : (V m c main_v41 : FVec Ideal S256x257 .f32)
    = effW (m ((c : Thread nD τ).loc main_arg12)) (m ((c : Thread nD τ).loc main_arg5)) (m ((c : Thread nD τ).loc main_arg9)) (m ((c : Thread nD τ).loc main_arg11)) := by
  have e : (V m c main_v41 : S256x257.Idx → EReal)
      = hostW Facts₀.bcast_S_S256x257 (m ((c : Thread nD τ).loc main_arg12)) (m ((c : Thread nD τ).loc main_arg5)) (m ((c : Thread nD τ).loc main_arg9)) (m ((c : Thread nD τ).loc main_arg11)) := by
    dsimp only [Gen.V, Gen.hostOps0]; after_results_simp; rfl
  exact e.trans (hostW_eq _ _ _ _ _)

set_option maxHeartbeats 1600000 in
/-- The depot's bias as launched. -/
theorem V_b_dep (c : Dev nD) : (V m c main_v46 : FVec Ideal S256 .f32)
    = effB (m ((c : Thread nD τ).loc main_arg12)) (m ((c : Thread nD τ).loc main_arg6)) (m ((c : Thread nD τ).loc main_arg10)) := by
  have e : (V m c main_v46 : S256.Idx → EReal)
      = hostB Facts₀.bcast_S_S256 (m ((c : Thread nD τ).loc main_arg12)) (m ((c : Thread nD τ).loc main_arg6)) (m ((c : Thread nD τ).loc main_arg10)) := by
    dsimp only [Gen.V, Gen.hostOps0]; after_results_simp; rfl
  exact e.trans (hostB_eq _ _ _ _)

end Cert.HostWeights

end
-- ==== Proof.KernelRun.lean ====
/-
  The idealized kernel's run, read over the launch memory.

  Each result array ends as one node row against a gate-mixed weight row plus a gate-mixed bias entry, the
  mixing done on the weights before the launch; the arguments end as they were.
-/
import proofs.«413976_j6330781794648_3_alg».proof.Proof.KernelValue
import proofs.«413976_j6330781794648_3_alg».proof.Proof.HostWeights

noncomputable section

namespace Cert.KernelRun

open Cert.KernelIdeal Cert.KernelIdeal.Gen Cert.KernelIdeal.Value Idealize.ShloMosaic Idealize.ShloMosaic.TcCoe Idealize.SL.Sem
open Idealize.ShloMosaic.ValueIdx Cert.Embed

variable (m : (ℓ : Loc nD τ sig) → Buf (Elt Ideal) ℓ) (ρ : Dev nD → PrngReg)

/-- Every weakly fair execution of the idealized kernel's program ends with the four results at these
    functions of the launch memory, and the arguments unchanged. -/
theorem run : θ_run defs (onTc (τ := τ) (main (F := Ideal))) ⟨m, fun _ => 0, ρ⟩ fun r => ∀ c : Dev nD,
      r.2.mem ((c : Thread nD τ).loc main_v61_0) = candArr (affine (m ((c : Thread nD τ).loc main_arg0)) (effW (m ((c : Thread nD τ).loc main_arg12)) (m ((c : Thread nD τ).loc main_arg7)) (m ((c : Thread nD τ).loc main_arg9)) (m ((c : Thread nD τ).loc main_arg11))) (effB (m ((c : Thread nD τ).loc main_arg12)) (m ((c : Thread nD τ).loc main_arg8)) (m ((c : Thread nD τ).loc main_arg10))))
      ∧ r.2.mem ((c : Thread nD τ).loc main_v61_1) = rowArr (affine (m ((c : Thread nD τ).loc main_arg0)) (effW (m ((c : Thread nD τ).loc main_arg12)) (m ((c : Thread nD τ).loc main_arg1)) (m ((c : Thread nD τ).loc main_arg9)) (m ((c : Thread nD τ).loc main_arg11))) (effB (m ((c : Thread nD τ).loc main_arg12)) (m ((c : Thread nD τ).loc main_arg2)) (m ((c : Thread nD τ).loc main_arg10)))) nodeSrc
      ∧ r.2.mem ((c : Thread nD τ).loc main_v61_2) = rowArr (affine (m ((c : Thread nD τ).loc main_arg0)) (effW (m ((c : Thread nD τ).loc main_arg12)) (m ((c : Thread nD τ).loc main_arg3)) (m ((c : Thread nD τ).loc main_arg9)) (m ((c : Thread nD τ).loc main_arg11))) (effB (m ((c : Thread nD τ).loc main_arg12)) (m ((c : Thread nD τ).loc main_arg4)) (m ((c : Thread nD τ).loc main_arg10)))) nodeDst
      ∧ r.2.mem ((c : Thread nD τ).loc main_v61_3) = rowArr (affine (m ((c : Thread nD τ).loc main_arg0)) (effW (m ((c : Thread nD τ).loc main_arg12)) (m ((c : Thread nD τ).loc main_arg5)) (m ((c : Thread nD τ).loc main_arg9)) (m ((c : Thread nD τ).loc main_arg11))) (effB (m ((c : Thread nD τ).loc main_arg12)) (m ((c : Thread nD τ).loc main_arg6)) (m ((c : Thread nD τ).loc main_arg10)))) nodeDep
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => by
      obtain ⟨h0, h1, h2, h3, hk⟩ := h c
      refine ⟨?_, ?_, ?_, ?_, hk⟩
      · rw [h0, Cert.KernelValue.final_cand, V_main_arg0, Cert.HostWeights.V_W_cand, Cert.HostWeights.V_b_cand]
      · rw [h1, Cert.KernelValue.final_src, V_main_arg0, Cert.HostWeights.V_W_src, Cert.HostWeights.V_b_src]
      · rw [h2, Cert.KernelValue.final_dst, V_main_arg0, Cert.HostWeights.V_W_dst, Cert.HostWeights.V_b_dst]
      · rw [h3, Cert.KernelValue.final_dep, V_main_arg0, Cert.HostWeights.V_W_dep, Cert.HostWeights.V_b_dep])
    (run_blocks m ρ)

end Cert.KernelRun

end
-- ==== Proof.lean ====
/-
  The certificate of a fused node embedder against its layer-by-layer reference.

  Every node row `x` of 257 features is embedded by a gate `a = 1 / (1 + exp (-w))` mixing a plain linear layer
  with a small-world layer: `(1 - a)·(x·W + b) + a·((x·W_reg + b_reg) + c·(x·W_rand))`, with its own `(W, b)` for the
  source node, the 1024 candidates, the destination and the depot of each of 128 batch entries. The reference
  computes exactly that, layer by layer. The kernel first mixes the WEIGHTS, `W_eff = ((1 - a)·W + a·W_reg) +
  (a·c)·W_rand`, `b_eff = (1 - a)·b + a·b_reg`, and then takes ONE product `x·W_eff + b_eff` per node, four batch
  entries per grid point. On extended reals the two agree because, under the precondition, every input entry is a
  finite real, so that the products distribute over the sums (`Embed.fused_eq_mixed`).

  The three frame claims are the generated ones (the reference's is its generated run with the results dropped);
  the kernel's idealization rewrote no operation, so its claim is `True`; the value claim sets the kernel's run
  (`KernelRun.run`, its fused form turned into the mixed form by the law) beside the reference's run read index
  by index (`RefValue`).
-/
import proofs.«413976_j6330781794648_3_alg».proof.Defs
import proofs.«413976_j6330781794648_3_alg».proof.Proof.Gen.Kernel
import proofs.«413976_j6330781794648_3_alg».proof.Proof.Gen.Kernel.Skeleton
import proofs.«413976_j6330781794648_3_alg».proof.Proof.Gen.Kernel.Launch
import proofs.«413976_j6330781794648_3_alg».proof.Proof.Gen.Kernel.Points
import proofs.«413976_j6330781794648_3_alg».proof.Proof.Gen.Kernel.Frame
import proofs.«413976_j6330781794648_3_alg».proof.Proof.Gen.KernelIdeal
import proofs.«413976_j6330781794648_3_alg».proof.Proof.Gen.KernelIdeal.Skeleton
import proofs.«413976_j6330781794648_3_alg».proof.Proof.Gen.KernelIdeal.Launch
import proofs.«413976_j6330781794648_3_alg».proof.Proof.Gen.KernelIdeal.Points
import proofs.«413976_j6330781794648_3_alg».proof.Proof.Gen.KernelIdeal.Frame
import proofs.«413976_j6330781794648_3_alg».proof.Proof.Gen.ReferenceIdeal
import proofs.«413976_j6330781794648_3_alg».proof.Proof.Gen.Pre_finite_inputs
import proofs.«413976_j6330781794648_3_alg».proof.Proof.Gen.KernelIdeal.Value
import proofs.«413976_j6330781794648_3_alg».proof.Proof.Gen.ReferenceIdeal.Run
import proofs.«413976_j6330781794648_3_alg».proof.Proof.Gen.ReferenceIdeal.Read
import proofs.«413976_j6330781794648_3_alg».proof.Proof.Embed
import proofs.«413976_j6330781794648_3_alg».proof.Proof.Finite
import proofs.«413976_j6330781794648_3_alg».proof.Proof.RefValue
import proofs.«413976_j6330781794648_3_alg».proof.Proof.KernelRun
import Idealize.ShloMosaic.Adequacy
import Idealize.ShloMosaic.Init

noncomputable section

namespace Cert.Proof

open Idealize.ShloMosaic Idealize.SL.Sem Cert.Embed Cert.LibReal

/-- The kernel as printed runs, faults nowhere and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the four results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- The idealization rewrote nothing. -/
theorem preserves : Cert.preserves_Kernel_KernelIdeal := trivial

/-- The mixed embedding of equal arrays is the same function. -/
theorem embed_congr {x x' : FVec Ideal SX .f32} {W W' Wg Wg' Wn Wn' : FVec Ideal SW .f32} {b b' bg bg' : FVec Ideal SB .f32}
    {w w' : FVec Ideal S0 .f32} (hx : x' = x) (hW : W' = W) (hWg : Wg' = Wg) (hWn : Wn' = Wn) (hb : b' = b)
    (hbg : bg' = bg) (hw : w' = w) : embed x' W' Wg' Wn' b' bg' w' = embed x W Wg Wn b bg w := by
  rw [hx, hW, hWg, hWn, hb, hbg, hw]

/-- From memories that agree on the arguments, the idealized kernel and the idealized reference end with the
    same four arrays: each node's mixed embedding. -/
theorem algebraic : Cert.algebraic_KernelIdeal_ReferenceIdeal := by
  intro m ρ m' ρ' hpre hagree
  refine ⟨fun c => rowArr (embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg2)) (m ((c.tc : Thread Cert.KernelIdeal.nD Cert.KernelIdeal.τ).loc Cert.KernelIdeal.main_arg10)) (m ((c.tc : Thread Cert.KernelIdeal.nD Cert.KernelIdeal.τ).loc Cert.KernelIdeal.main_arg12))) nodeSrc,
    fun c => candArr (embed (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg12))),
    fun c => rowArr (embed (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg4)) (m ((c.tc : Thread Cert.KernelIdeal.nD Cert.KernelIdeal.τ).loc Cert.KernelIdeal.main_arg10)) (m ((c.tc : Thread Cert.KernelIdeal.nD Cert.KernelIdeal.τ).loc Cert.KernelIdeal.main_arg12))) nodeDst,
    fun c => rowArr (embed (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg12))) nodeDep, ?_, ?_⟩
  · refine (θ_run Cert.KernelIdeal.defs _ _).mono (fun r h c => ?_) (Cert.KernelRun.run m ρ)
    obtain ⟨h0, h1, h2, h3, hk⟩ := h c
    obtain ⟨f0, f1, f2, f3, f4, f5, f6, f7, f8, f9, f10, f11, f12⟩ := Cert.Finite.isReal_of_fn _ _ _ _ _ _ _ _ _ _ _ _ _ (hpre c)
    exact ⟨h1.trans (rowArr_affine_eq f0 f1 f9 f11 f2 f10 f12 _),
      h0.trans (candArr_affine_eq f0 f7 f9 f11 f8 f10 f12),
      h2.trans (rowArr_affine_eq f0 f3 f9 f11 f4 f10 f12 _),
      h3.trans (rowArr_affine_eq f0 f5 f9 f11 f6 f10 f12 _), hk⟩
  · refine (θ_run Cert.ReferenceIdeal.defs _ _).mono (fun r h c => ?_)
      (Cert.ReferenceIdeal.Value.run (F := Ideal) m' ρ')
    obtain ⟨h0, h1, h2, h3, hk⟩ := h c
    obtain ⟨e0, e1, e2, e3, e4, e5, e6, e7, e8, e9, e10, e11, e12⟩ := hagree c
    refine ⟨?_, ?_, ?_, ?_, hk⟩
    · exact (h0.trans ((Cert.ReferenceIdeal.Read.val_main_v25_eq _ _ _ _ _ _ _).trans (Cert.RefValue.src_eq _ _ _ _ _ _ _))).trans
        (congrArg (fun f => rowArr f nodeSrc) (embed_congr e0 e1 e9 e11 e2 e10 e12))
    · exact (h1.trans ((Cert.ReferenceIdeal.Read.val_main_v43_eq _ _ _ _ _ _ _).trans (Cert.RefValue.cand_eq _ _ _ _ _ _ _))).trans
        (congrArg candArr (embed_congr e0 e7 e9 e11 e8 e10 e12))
    · exact (h2.trans ((Cert.ReferenceIdeal.Read.val_main_v61_eq _ _ _ _ _ _ _).trans (Cert.RefValue.dst_eq _ _ _ _ _ _ _))).trans
        (congrArg (fun f => rowArr f nodeDst) (embed_congr e0 e3 e9 e11 e4 e10 e12))
    · exact (h3.trans ((Cert.ReferenceIdeal.Read.val_main_v79_eq _ _ _ _ _ _ _).trans (Cert.RefValue.dep_eq _ _ _ _ _ _ _))).trans
        (congrArg (fun f => rowArr f nodeDep) (embed_congr e0 e5 e9 e11 e6 e10 e12))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
